-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1000 : Shape := ⟨2, ![50000, 1000]⟩
abbrev S2000x64 : Shape := ⟨2, ![2000, 64]⟩
abbrev S64 : Shape := ⟨1, ![64]⟩
abbrev S64x2000 : Shape := ⟨2, ![64, 2000]⟩
abbrev S2000 : Shape := ⟨1, ![2000]⟩
abbrev S1600000 : Shape := ⟨1, ![1600000]⟩
abbrev S_ : Shape := ⟨0, ![]⟩

class Facts : Prop where
  bcast_S_S50000x1000 : S_.BroadcastsInDim S50000x1000 (![] : Fin 0 → Fin S50000x1000.rank)
  reducesTo_S50000x1000_S_d0_1 : S50000x1000.ReducesTo [0, 1] S_
  h_S_ : 0 < S_.numel
  bcast_S_S2000x64 : S_.BroadcastsInDim S2000x64 (![] : Fin 0 → Fin S2000x64.rank)
  reducesTo_S2000x64_S_d0_1 : S2000x64.ReducesTo [0, 1] S_
  bcast_S_S64 : S_.BroadcastsInDim S64 (![] : Fin 0 → Fin S64.rank)
  reducesTo_S64_S_d0 : S64.ReducesTo [0] S_
  bcast_S_S64x2000 : S_.BroadcastsInDim S64x2000 (![] : Fin 0 → Fin S64x2000.rank)
  reducesTo_S64x2000_S_d0_1 : S64x2000.ReducesTo [0, 1] S_
  bcast_S_S2000 : S_.BroadcastsInDim S2000 (![] : Fin 0 → Fin S2000.rank)
  reducesTo_S2000_S_d0 : S2000.ReducesTo [0] S_

variable [Facts]

def fn_part1 {F : FTy → Type} [FloatOps F] (main_arg4 : FVec F S64x2000 .f32) (main_arg5 : FVec F S2000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x2000 .f32 := Host.absf main_arg4
  let main_cst_6 : FVec F S_ .f32 := constant S_ .f32 0x7F800000#32
  let main_v20 : FVec F S64x2000 .f32 := broadcastInDim S64x2000 ![] bcast_S_S64x2000 main_cst_6
  let main_v21 : IVec S64x2000 1 := cmpf .olt main_v19 main_v20
  let main_c_7 : IVec S_ 1 := constantI S_ 1 1#1
  let main_v22 : IVec S_ 1 := (fun x v => Host.reduce IntOp.andi x v reducesTo_S64x2000_S_d0_1 h_S_) main_v21 main_c_7
  let main_v23 : IVec S_ 1 := andi main_v18 main_v22
  let main_v24 : FVec F S2000 .f32 := Host.absf main_arg5
  let main_cst_8 : FVec F S_ .f32 := constant S_ .f32 0x7F800000#32
  let main_v25 : FVec F S2000 .f32 := broadcastInDim S2000 ![] bcast_S_S2000 main_cst_8
  let main_v26 : IVec S2000 1 := cmpf .olt main_v24 main_v25
  let main_c_9 : IVec S_ 1 := constantI S_ 1 1#1
  let main_v27 : IVec S_ 1 := (fun x v => Host.reduce IntOp.andi x v reducesTo_S2000_S_d0 h_S_) main_v26 main_c_9
  let main_v28 : IVec S_ 1 := andi main_v23 main_v27
  main_v28

def fn {F : FTy → Type} [FloatOps F] (main_arg0 : FVec F S50000x1000 .f32) (main_arg1 : FVec F S50000x1000 .f32) (main_arg2 : FVec F S2000x64 .f32) (main_arg3 : FVec F S64 .f32) (main_arg4 : FVec F S64x2000 .f32) (main_arg5 : FVec F S2000 .f32) (main_arg6 : IVec S1600000 32) (main_arg7 : IVec S1600000 32) : IVec S_ 1 :=
  let main_v0 : FVec F S50000x1000 .f32 := Host.absf main_arg0
  let main_cst : FVec F S_ .f32 := constant S_ .f32 0x7F800000#32
  let main_v1 : FVec F S50000x1000 .f32 := broadcastInDim S50000x1000 ![] bcast_S_S50000x1000 main_cst
  let main_v2 : IVec S50000x1000 1 := cmpf .olt main_v0 main_v1
  let main_c : IVec S_ 1 := constantI S_ 1 1#1
  let main_v3 : IVec S_ 1 := (fun x v => Host.reduce IntOp.andi x v reducesTo_S50000x1000_S_d0_1 h_S_) main_v2 main_c
  let main_v4 : FVec F S50000x1000 .f32 := Host.absf main_arg1
  let main_cst_0 : FVec F S_ .f32 := constant S_ .f32 0x7F800000#32
  let main_v5 : FVec F S50000x1000 .f32 := broadcastInDim S50000x1000 ![] bcast_S_S50000x1000 main_cst_0
  let main_v6 : IVec S50000x1000 1 := cmpf .olt main_v4 main_v5
  let main_c_1 : IVec S_ 1 := constantI S_ 1 1#1
  let main_v7 : IVec S_ 1 := (fun x v => Host.reduce IntOp.andi x v reducesTo_S50000x1000_S_d0_1 h_S_) main_v6 main_c_1
  let main_v8 : IVec S_ 1 := andi main_v3 main_v7
  let main_v9 : FVec F S2000x64 .f32 := Host.absf main_arg2
  let main_cst_2 : FVec F S_ .f32 := constant S_ .f32 0x7F800000#32
  let main_v10 : FVec F S2000x64 .f32 := broadcastInDim S2000x64 ![] bcast_S_S2000x64 main_cst_2
  let main_v11 : IVec S2000x64 1 := cmpf .olt main_v9 main_v10
  let main_c_3 : IVec S_ 1 := constantI S_ 1 1#1
  let main_v12 : IVec S_ 1 := (fun x v => Host.reduce IntOp.andi x v reducesTo_S2000x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S50000x1000 : Shape := ⟨2, ![50000, 1000]⟩
abbrev S2000x64 : Shape := ⟨2, ![2000, 64]⟩
abbrev S64 : Shape := ⟨1, ![64]⟩
abbrev S64x2000 : Shape := ⟨2, ![64, 2000]⟩
abbrev S2000 : Shape := ⟨1, ![2000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1000x64 : Shape := ⟨2, ![1000, 64]⟩
abbrev S50000x64 : Shape := ⟨2, ![50000, 64]⟩
abbrev S1000x1000 : Shape := ⟨2, ![1000, 1000]⟩
abbrev S50000x1 : Shape := ⟨2, ![50000, 1]⟩
abbrev S1600000x64 : Shape := ⟨2, ![1600000, 64]⟩
abbrev S1x64 : Shape := ⟨2, ![1, 64]⟩
abbrev S1x2000 : Shape := ⟨2, ![1, 2000]⟩
abbrev S400x64 : Shape := ⟨2, ![400, 64]⟩
abbrev S400x1000 : Shape := ⟨2, ![400, 1000]⟩
abbrev S400x2000 : Shape := ⟨2, ![400, 2000]⟩

abbrev nBuf : Space → Nat
  | .hbm => 75
  | .vmem => 18
  | .smem => 0
  | _ => 0

abbrev bufTy : (tb : Table) → Fin (tcTables nBuf tb) → BufTy
  | .hbm, ⟨0, _⟩ => ⟨S50000x1000, .f32⟩
  | .hbm, ⟨1, _⟩ => ⟨S50000x1000, .f32⟩
  | .hbm, ⟨2, _⟩ => ⟨S2000x64, .f32⟩
  | .hbm, ⟨3, _⟩ => ⟨S64, .f32⟩
  | .hbm, ⟨4, _⟩ => ⟨S64x2000, .f32⟩
  | .hbm, ⟨5, _⟩ => ⟨S2000, .f32⟩
  | .hbm, ⟨6, _⟩ => ⟨S1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S1000x64, .f32⟩
  | .hbm, ⟨27, _⟩ => ⟨S1000x64, .f32⟩
  | .hbm, ⟨28, _⟩ => ⟨S50000x64, .f32⟩
  | .hbm, ⟨29, _⟩ => ⟨S50000x1, .f32⟩
  | .hbm, ⟨30, _⟩ => ⟨S50000x64, .f32⟩
  | .hbm, ⟨31, _⟩ => ⟨S50000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S50000x64, .f32⟩
  | .hbm, ⟨43, _⟩ => ⟨S1600000x1, .i32⟩
  | .hbm, ⟨44, _⟩ => ⟨S50000x64, .f32⟩
  | .hbm, ⟨45, _⟩ => ⟨S50000x1, .f32⟩
  | .hbm, ⟨46, _⟩ => ⟨S50000x64, .f32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S50000x64, .f32⟩
  | .hbm, ⟨53, _⟩ => ⟨S50000x64, .f32⟩
  | .hbm, ⟨54, _⟩ => ⟨S50000x1, .f32⟩
  | .hbm, ⟨55, _⟩ => ⟨S50000x64, .f32⟩
  | .hbm, ⟨56, _⟩ => ⟨S50000x64, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S_, .f32⟩
  | .hbm, ⟨67, _⟩ => ⟨S50000x64, .f32⟩
  | .hbm, ⟨68, _⟩ => ⟨S1600000x1, .i32⟩
  | .hbm, ⟨69, _⟩ => ⟨S50000x64, .f32⟩
  | .hbm, ⟨70, _⟩ => ⟨S50000x1, .f32⟩
  | .hbm, ⟨71, _⟩ => ⟨S50000x64, .f32⟩
  | .hbm, ⟨72, _⟩ => ⟨S50000x64, .f32⟩
  | .hbm, ⟨73, _⟩ => ⟨S1x2000, .f32⟩
  | .hbm, ⟨74, _⟩ => ⟨S50000x1000, .f32⟩
  | .local _ .vmem, ⟨0, _⟩ => ⟨S1000x1000, .f32⟩
  | .local _ .vmem, ⟨1, _⟩ => ⟨S1000x1000, .f32⟩
  | .local _ .vmem, ⟨2, _⟩ => ⟨S1000x1000, .f32⟩
  | .local _ .vmem, ⟨3, _⟩ => ⟨S1000x1000, .f32⟩
  | .local _ .vmem, ⟨4, _⟩ => ⟨S1000x64, .f32⟩
  | .local _ .vmem, ⟨5, _⟩ => ⟨S1000x64, .f32⟩
  | .local _ .vmem, ⟨6, _⟩ => ⟨S1000x64, .f32⟩
  | .local _ .vmem, ⟨7, _⟩ => ⟨S1000x64, .f32⟩
  | .local _ .vmem, ⟨8, _⟩ => ⟨S400x64, .f32⟩
  | .local _ .vmem, ⟨9, _⟩ => ⟨S400x64, .f32⟩
  | .local _ .vmem, ⟨10, _⟩ => ⟨S64x2000, .f32⟩
  | .local _ .vmem, ⟨11, _⟩ => ⟨S1x2000, .f32⟩
  | .local _ .vmem, ⟨12, _⟩ => ⟨S400x1000, .f32⟩
  | .local _ .vmem, ⟨13, _⟩ => ⟨S400x1000, .f32⟩
  | .local _ .vmem, ⟨14, _⟩ => ⟨S400x1000, .f32⟩
  | .local _ .vmem, ⟨15, _⟩ => ⟨S400x1000, .f32⟩
  | .local _ .vmem, ⟨16, _⟩ => ⟨S400x1000, .f32⟩
  | .local _ .vmem, ⟨17, _⟩ => ⟨S400x1000, .f32⟩
  | _, _ => ⟨S50000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_cst : Ref sig .tc := ⟨.hbm, 51, rfl⟩
abbrev main_call0_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x2000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x1000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x1000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  slices_S2000x64_S1000x64_0_0 : S2000x64.Slices ![0, 0] S1000x64
  slices_S2000x64_S1000x64_1000_0 : S2000x64.Slices ![1000, 0] S1000x64
  inb_S1000x1000_S1000x1000_0_0 : ∀ a, (![0, 0] : Fin 2 → Nat) a + S1000x1000.size a ≤ S1000x1000.size a
  h_S1000x1000 : 0 < S1000x1000.numel
  bitsLt_bf16_f32 : FTy.bits .bf16 < FTy.bits .f32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S2000_S1x2000 : S2000.ShapeCasts S1x2000
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S64x2000_S64x2000_0_0 : ∀ a, (![0, 0] : Fin 2 → Nat) a + S64x2000.size a ≤ S64x2000.size a
  h_S64x2000 : 0 < S64x2000.numel
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S400x2000 : S1x2000.Broadcasts S400x2000
  slices_S400x2000_o0_0_S400x1000 : S400x2000.Slices ![0, 0] S400x1000
  slices_S400x2000_o0_1000_S400x1000 : S400x2000.Slices ![0, 1000] S400x1000
  inb_S400x1000_S400x1000_0_0 : ∀ a, (![0, 0] : Fin 2 → Nat) a + S400x1000.size a ≤ S400x1000.size a
  h_S400x1000 : 0 < S400x1000.numel
  scatter_S50000_S1600000x1_S1600000_n_0_0_1_wf : ScatterDims.WF S50000 S1600000x1 S1600000 [] [0] [0] 1
  dot_S1000x1000_S1000x64_S1000x64_1_0_0_1_n_n_wf : DotDims.WF S1000x1000 S1000x64 S1000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S400x64_S64x2000_S400x2000_1_0_0_1_n_n_wf : DotDims.WF S400x64 S64x2000 S400x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1000.size a ≤ S50000x1000.size a
  hwx0_0 : ∀ i : grid0.Coords, EltTy.bits .f32 = 32 ∨ (Rect.block (s := S50000x1000) S1000x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1000.size a ≤ S50000x1000.size a
  hwx0_1 : ∀ i : grid0.Coords, EltTy.bits .f32 = 32 ∨ (Rect.block (s := S50000x1000) S1000x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S1000x64.size a
  hwx0_2 : ∀ i : grid0.Coords, EltTy.bits .f32 = 32 ∨ (Rect.block (s := S1000x64) S1000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S1000x64.size a
  hwx0_3 : ∀ i : grid0.Coords, EltTy.bits .f32 = 32 ∨ (Rect.block (s := S1000x64) S1000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x64.size a ≤ S50000x64.size a
  hwx0_4 : ∀ i : grid0.Coords, EltTy.bits .f32 = 32 ∨ (Rect.block (s := S50000x64) S1000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x64.size a ≤ S50000x64.size a
  hwx1_0 : ∀ i : grid1.Coords, EltTy.bits .f32 = 32 ∨ (Rect.block (s := S50000x64) S400x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x2000.size a ≤ S64x2000.size a
  hwx1_1 : ∀ i : grid1.Coords, EltTy.bits .f32 = 32 ∨ (Rect.block (s := S64x2000) S64x2000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2000.size a ≤ S1x2000.size a
  hwx1_2 : ∀ i : grid1.Coords, EltTy.bits .f32 = 32 ∨ (Rect.block (s := S1x2000) S1x2000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x1000.size a ≤ S50000x1000.size a
  hwx1_3 : ∀ i : grid1.Coords, EltTy.bits .f32 = 32 ∨ (Rect.block (s := S50000x1000) S400x1000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x1000.size a ≤ S50000x1000.size a
  hwx1_4 : ∀ i : grid1.Coords, EltTy.bits .f32 = 32 ∨ (Rect.block (s := S50000x1000) S400x1000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x1000.size a ≤ S50000x1000.size a
  hwx1_5 : ∀ i : grid1.Coords, EltTy.bits .f32 = 32 ∨ (Rect.block (s := S50000x1000) S400x1000.size (cc1_transform_5 i) (hinb1_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S1000x1000_S1000x64_S1000x64_1_0_0_1_n_n : DotDims S1000x1000 S1000x64 S1000x64 where
  lhsContracting := [1]
  rhsContracting := [0]
  lhsNonContracting := [0]
  rhsNonContracting := [1]
  lhsBatch := []
  rhsBatch := []
  wf := dot_S1000x1000_S1000x64_S1000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S400x64_S64x2000_S400x2000_1_0_0_1_n_n : DotDims S400x64 S64x2000 S400x2000 where
  lhsContracting := [1]
  rhsContracting := [0]
  lhsNonContracting := [0]
  rhsNonContracting := [1]
  lhsBatch := []
  rhsBatch := []
  wf := dot_S400x64_S64x2000_S400x2000_1_0_0_1_n_n_wf

abbrev win0_0 : Pipeline.Window sig grid0 :=
  Pipeline.Window.ofSpec (Memref.whole main_arg0) S1000x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1000x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1000x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v51) S400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x2000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x2000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S400x1000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S400x1000.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v53) S400x1000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x1000 : Shape := ⟨2, ![50000, 1000]⟩
abbrev S2000x64 : Shape := ⟨2, ![2000, 64]⟩
abbrev S64 : Shape := ⟨1, ![64]⟩
abbrev S64x2000 : Shape := ⟨2, ![64, 2000]⟩
abbrev S2000 : Shape := ⟨1, ![2000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x2000 : Shape := ⟨2, ![50000, 2000]⟩
abbrev S50000x64 : Shape := ⟨2, ![50000, 64]⟩
abbrev S50000x1 : Shape := ⟨2, ![50000, 1]⟩
abbrev S1600000x64 : Shape := ⟨2, ![1600000, 64]⟩
abbrev S1x64 : Shape := ⟨2, ![1, 64]⟩
abbrev S1x2000 : Shape := ⟨2, ![1, 2000]⟩

abbrev nBuf : Space → Nat
  | .hbm => 81
  | .vmem => 0
  | .smem => 0
  | _ => 0

abbrev bufTy : (tb : Table) → Fin (tcTables nBuf tb) → BufTy
  | .hbm, ⟨0, _⟩ => ⟨S50000x1000, .f32⟩
  | .hbm, ⟨1, _⟩ => ⟨S50000x1000, .f32⟩
  | .hbm, ⟨2, _⟩ => ⟨S2000x64, .f32⟩
  | .hbm, ⟨3, _⟩ => ⟨S64, .f32⟩
  | .hbm, ⟨4, _⟩ => ⟨S64x2000, .f32⟩
  | .hbm, ⟨5, _⟩ => ⟨S2000, .f32⟩
  | .hbm, ⟨6, _⟩ => ⟨S1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x2000, .f32⟩
  | .hbm, ⟨27, _⟩ => ⟨S50000x64, .f32⟩
  | .hbm, ⟨28, _⟩ => ⟨S50000x1, .f32⟩
  | .hbm, ⟨29, _⟩ => ⟨S50000x64, .f32⟩
  | .hbm, ⟨30, _⟩ => ⟨S50000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S50000x64, .f32⟩
  | .hbm, ⟨42, _⟩ => ⟨S1600000x1, .i32⟩
  | .hbm, ⟨43, _⟩ => ⟨S50000x64, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S50000x1, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S50000x64, .f32⟩
  | .hbm, ⟨67, _⟩ => ⟨S1600000x1, .i32⟩
  | .hbm, ⟨68, _⟩ => ⟨S50000x64, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S50000x2000, .f32⟩
  | .hbm, ⟨73, _⟩ => ⟨S1x2000, .f32⟩
  | .hbm, ⟨74, _⟩ => ⟨S50000x2000, .f32⟩
  | .hbm, ⟨75, _⟩ => ⟨S50000x2000, .f32⟩
  | .hbm, ⟨76, _⟩ => ⟨S50000x1000, .f32⟩
  | .hbm, ⟨77, _⟩ => ⟨S50000x1000, .f32⟩
  | .hbm, ⟨78, _⟩ => ⟨S50000x1000, .f32⟩
  | .hbm, ⟨79, _⟩ => ⟨S50000x1000, .f32⟩
  | .hbm, ⟨80, _⟩ => ⟨S50000x1000, .f32⟩
  | _, _ => ⟨S50000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  concatenates_S50000x1000_S50000x1000_S50000x2000_d1 : Shape.Concatenates [S50000x1000, S50000x1000] S50000x2000 1
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2000_S1x2000_1 : S2000.BroadcastsInDim S1x2000 (![1] : Fin 1 → Fin S1x2000.rank)
  bcast_S1x2000_S50000x2000_0_1 : S1x2000.BroadcastsInDim S50000x2000 (![0, 1] : Fin 2 → Fin S50000x2000.rank)
  slices_S50000x2000_S50000x1000_0_0 : S50000x2000.Slices ![0, 0] S50000x1000
  slices_S50000x2000_S50000x1000_0_1000 : S50000x2000.Slices ![0, 1000] S50000x1000
  scatter_S50000_S1600000x1_S1600000_n_0_0_1_wf : ScatterDims.WF S50000 S1600000x1 S1600000 [] [0] [0] 1
  dot_S50000x2000_S2000x64_S50000x64_1_0_0_1_n_n_wf : DotDims.WF S50000x2000 S2000x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x2000_S50000x2000_1_0_0_1_n_n_wf : DotDims.WF S50000x64 S64x2000 S50000x2000 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x2000_S2000x64_S50000x64_1_0_0_1_n_n : DotDims S50000x2000 S2000x64 S50000x64 where
  lhsContracting := [1]
  rhsContracting := [0]
  lhsNonContracting := [0]
  rhsNonContracting := [1]
  lhsBatch := []
  rhsBatch := []
  wf := dot_S50000x2000_S2000x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x2000_S50000x2000_1_0_0_1_n_n : DotDims S50000x64 S64x2000 S50000x2000 where
  lhsContracting := [1]
  rhsContracting := [0]
  lhsNonContracting := [0]
  rhsNonContracting := [1]
  lhsBatch := []
  rhsBatch := []
  wf := dot_S50000x64_S64x2000_S50000x2000_1_0_0_1_n_n_wf

class Facts : Prop extends Facts₀ where

variable [Facts]
-- ==== Proof.Spec.lean ====
/-
  The two dense layers of the graph network as plain sums over the extended reals, index by index.

  * `proj`: row `p` of the first projection. The reference multiplies the row-wise join `[x_u | x_s]` (2000 wide)
    by `W0`; the kernel multiplies `x_u` by the top half of `W0` and `x_s` by the bottom half and adds. A sum over
    `Fin 2000` is the sum over its first thousand terms plus the sum over its last thousand (`sum_split`), in any
    commutative monoid: the extended reals need no finiteness for it.
  * `gate`: `(agg · W1 + b1)` split into its first and last thousand columns, the first multiplying `x_u`, the last
    `x_s`, the two products added.
-/
import Idealize.ShloMosaic.PureOps.Ideal
import Idealize.ShloMosaic.PureOps.Ideal.Laws
import Idealize.ShloMosaic.Lib.ValueIdx
import Idealize.ShloMosaic.Lib.Pipeline.Value
import Mathlib.Algebra.BigOperators.Fin

noncomputable section

namespace Cert.GraphGate

open Idealize.ShloMosaic Idealize.ShloMosaic.ValueIdx
open scoped BigOperators

/-- Entry `(p, q)` of `x_u · W_u + x_s · W_s` with `W_u`, `W_s` given as two 1000 × 64 arrays. -/
def projAt (xu xs : FVec Ideal ⟨2, ![50000, 1000]⟩ .f32) (wu ws : FVec Ideal ⟨2, ![1000, 64]⟩ .f32)
    (p : Fin 50000) (q : Fin 64) : EReal :=
  (∑ k : Fin 1000, xu (ix2 p k) * wu (ix2 k q)) + ∑ k : Fin 1000, xs (ix2 p k) * ws (ix2 k q)

/-- The first projection as an array, from the two halves of the weight. -/
def proj (xu xs : FVec Ideal ⟨2, ![50000, 1000]⟩ .f32) (wu ws : FVec Ideal ⟨2, ![1000, 64]⟩ .f32) :
    FVec Ideal ⟨2, ![50000, 64]⟩ .f32 :=
  fun i => projAt xu xs wu ws ⟨(i 0).val, (i 0).isLt⟩ ⟨(i 1).val, (i 1).isLt⟩

/-- Entry `(p, q)` of `[x_u | x_s] · W0` written over the whole 2000 × 64 weight: rows `k` and `1000 + k`. -/
def projWholeAt (xu xs : FVec Ideal ⟨2, ![50000, 1000]⟩ .f32) (w0 : FVec Ideal ⟨2, ![2000, 64]⟩ .f32)
    (p : Fin 50000) (q : Fin 64) : EReal :=
  (∑ k : Fin 1000, xu (ix2 p k) * w0 (ix2 ⟨k.val, by omega⟩ q))
    + ∑ k : Fin 1000, xs (ix2 p k) * w0 (ix2 ⟨1000 + k.val, by omega⟩ q)

/-- The first projection as an array, from the whole weight. -/
def projWhole (xu xs : FVec Ideal ⟨2, ![50000, 1000]⟩ .f32) (w0 : FVec Ideal ⟨2, ![2000, 64]⟩ .f32) :
    FVec Ideal ⟨2, ![50000, 64]⟩ .f32 :=
  fun i => projWholeAt xu xs w0 ⟨(i 0).val, (i 0).isLt⟩ ⟨(i 1).val, (i 1).isLt⟩

/-- A sum over `Fin 2000` is the sum of its first thousand terms plus the sum of its last thousand. -/
theorem sum_split {M : Type} [AddCommMonoid M] (f : Fin 2000 → M) :
    ∑ k : Fin 2000, f k = (∑ k : Fin 1000, f ⟨k.val, by omega⟩) + ∑ k : Fin 1000, f ⟨1000 + k.val, by omega⟩ :=
  Fin.sum_univ_add (a := 1000) (b := 1000) f

/-- With the two halves of the weight cut out of the whole weight, `proj` is `projWhole`. -/
theorem proj_of_slices (xu xs : FVec Ideal ⟨2, ![50000, 1000]⟩ .f32) (w0 : FVec Ideal ⟨2, ![2000, 64]⟩ .f32)
    (h0 : (⟨2, ![2000, 64]⟩ : Shape).Slices ![0, 0] ⟨2, ![1000, 64]⟩)
    (h1 : (⟨2, ![2000, 64]⟩ : Shape).Slices ![1000, 0] ⟨2, ![1000, 64]⟩) :
    proj xu xs (extractStridedSlice ⟨2, ![1000, 64]⟩ ![0, 0] w0 h0) (extractStridedSlice ⟨2, ![1000, 64]⟩ ![1000, 0] w0 h1)
      = projWhole xu xs w0 := by
  funext i
  unfold proj projWhole projAt projWholeAt
  -- row `k` of the top half is row `k` of the whole weight; row `k` of the bottom half is row `1000 + k`
  have e0 : ∀ (k : Fin 1000) (q : Fin 64), extractStridedSlice ⟨2, ![1000, 64]⟩ ![0, 0] w0 h0 (ix2 k q) = w0 (ix2 ⟨k.val, by omega⟩ q) := fun k q =>
    extractStridedSlice_apply _ _ _ _ _ (fun a => by
      match a with
      | ⟨0, _⟩ => show k.val = 0 + k.val; omega
      | ⟨1, _⟩ => show q.val = 0 + q.val; omega)
  have e1 : ∀ (k : Fin 1000) (q : Fin 64), extractStridedSlice ⟨2, ![1000, 64]⟩ ![1000, 0] w0 h1 (ix2 k q) = w0 (ix2 ⟨1000 + k.val, by omega⟩ q) := fun k q =>
    extractStridedSlice_apply _ _ _ _ _ (fun a => by
      match a with
      | ⟨0, _⟩ => show 1000 + k.val = 1000 + k.val; rfl
      | ⟨1, _⟩ => show q.val = 0 + q.val; omega)
  simp only [e0, e1]

/-- Entry `(p, q)` of the gated output, the bias given as a 1 × 2000 row. -/
def gateRowAt (agg : FVec Ideal ⟨2, ![50000, 64]⟩ .f32) (w1 : FVec Ideal ⟨2, ![64, 2000]⟩ .f32)
    (b1 : FVec Ideal ⟨2, ![1, 2000]⟩ .f32) (xu xs : FVec Ideal ⟨2, ![50000, 1000]⟩ .f32)
    (p : Fin 50000) (q : Fin 1000) : EReal :=
  ((∑ k : Fin 64, agg (ix2 p k) * w1 (ix2 k ⟨q.val, by omega⟩)) + b1 (ix2 0 ⟨q.val, by omega⟩)) * xu (ix2 p q)
    + ((∑ k : Fin 64, agg (ix2 p k) * w1 (ix2 k ⟨1000 + q.val, by omega⟩)) + b1 (ix2 0 ⟨1000 + q.val, by omega⟩)) * xs (ix2 p q)

/-- The gated output as an array, the bias a 1 × 2000 row. -/
def gateRow (agg : FVec Ideal ⟨2, ![50000, 64]⟩ .f32) (w1 : FVec Ideal ⟨2, ![64, 2000]⟩ .f32)
    (b1 : FVec Ideal ⟨2, ![1, 2000]⟩ .f32) (xu xs : FVec Ideal ⟨2, ![50000, 1000]⟩ .f32) :
    FVec Ideal ⟨2, ![50000, 1000]⟩ .f32 :=
  fun i => gateRowAt agg w1 b1 xu xs ⟨(i 0).val, (i 0).isLt⟩ ⟨(i 1).val, (i 1).isLt⟩

/-- Entry `(p, q)` of the gated output, the bias a vector of 2000. -/
def gateAt (agg : FVec Ideal ⟨2, ![50000, 64]⟩ .f32) (w1 : FVec Ideal ⟨2, ![64, 2000]⟩ .f32)
    (b1 : FVec Ideal ⟨1, ![2000]⟩ .f32) (xu xs : FVec Ideal ⟨2, ![50000, 1000]⟩ .f32)
    (p : Fin 50000) (q : Fin 1000) : EReal :=
  ((∑ k : Fin 64, agg (ix2 p k) * w1 (ix2 k ⟨q.val, by omega⟩)) + b1 (ix1 ⟨q.val, by omega⟩)) * xu (ix2 p q)
    + ((∑ k : Fin 64, agg (ix2 p k) * w1 (ix2 k ⟨1000 + q.val, by omega⟩)) + b1 (ix1 ⟨1000 + q.val, by omega⟩)) * xs (ix2 p q)

/-- The gated output as an array, the bias a vector of 2000. -/
def gate (agg : FVec Ideal ⟨2, ![50000, 64]⟩ .f32) (w1 : FVec Ideal ⟨2, ![64, 2000]⟩ .f32)
    (b1 : FVec Ideal ⟨1, ![2000]⟩ .f32) (xu xs : FVec Ideal ⟨2, ![50000, 1000]⟩ .f32) :
    FVec Ideal ⟨2, ![50000, 1000]⟩ .f32 :=
  fun i => gateAt agg w1 b1 xu xs ⟨(i 0).val, (i 0).isLt⟩ ⟨(i 1).val, (i 1).isLt⟩

/-- The bias laid out as a row by a shape cast is the bias vector, entry by entry. -/
theorem gateRow_of_cast (agg : FVec Ideal ⟨2, ![50000, 64]⟩ .f32) (w1 : FVec Ideal ⟨2, ![64, 2000]⟩ .f32)
    (b1 : FVec Ideal ⟨1, ![2000]⟩ .f32) (xu xs : FVec Ideal ⟨2, ![50000, 1000]⟩ .f32)
    (h : (⟨1, ![2000]⟩ : Shape).ShapeCasts ⟨2, ![1, 2000]⟩) :
    gateRow agg w1 (shapeCast ⟨2, ![1, 2000]⟩ b1 h) xu xs = gate agg w1 b1 xu xs := by
  funext i
  unfold gateRow gate gateRowAt gateAt
  -- entry `(0, q)` of the row has the row-major position `q` of the vector
  have e : ∀ (q : Fin 2000), shapeCast ⟨2, ![1, 2000]⟩ b1 h (ix2 (0 : Fin 1) q) = b1 (ix1 q) := fun q =>
    shapeCast_apply _ _ _ _ (by
      rw [Shape.rowMajor_val_one, Shape.rowMajor_val_two]
      show q.val = (0 : Fin 1).val * 2000 + q.val
      simp)
  simp only [e]

end Cert.GraphGate

end
-- ==== Proof.Layer0Value.lean ====
/-
  The first pallas_call's result array. Grid point `t` (of 50) holds rows `1000·t … 1000·t + 999` of `x_u` and of
  `x_s` and both whole 1000 × 64 weight halves, and writes back rows `1000·t …` of the product: entry `(r, q)` of its
  block is `Σ_k x_u[1000·t + r, k]·W_u[k, q] + Σ_k x_s[1000·t + r, k]·W_s[k, q]` (two matrix products into zero
  accumulators, added; the change of float format is the identity on the extended reals). The fifty blocks tile the
  50000 rows, so the array ends at `proj` of the four arrays the region found.
-/
import proofs.«167163_j1649267442174_1_alg».proof.Proof.Gen.KernelIdeal.Frame
import proofs.«167163_j1649267442174_1_alg».proof.Proof.Spec

set_option maxRecDepth 16384

noncomputable section

namespace Cert.KernelIdeal.Layer0

open Cert.KernelIdeal Cert.KernelIdeal.Gen Cert.GraphGate
open Idealize.ShloMosaic Idealize.ShloMosaic.TcCoe Idealize.ShloMosaic.ValueIdx Idealize.SL.Sem
open Idealize.ShloMosaic.Pipeline (Dat Cfg Window)
open scoped BigOperators

/-! ## One block's matrix product at an entry -/

/-- The left operand's row coordinate under the product's dimension numbers is the output's row. -/
theorem lhs_row (i : S1000x64.Idx) (q : dot_S1000x1000_S1000x64_S1000x64_1_0_0_1_n_n.contr.Idx) :
    (dot_S1000x1000_S1000x64_S1000x64_1_0_0_1_n_n.lhsIdx i q 0).val = (i 0).val := by
  unfold DotDims.lhsIdx
  rw [dif_neg (show ¬(0 : Fin S1000x1000.rank) ∈ dot_S1000x1000_S1000x64_S1000x64_1_0_0_1_n_n.lhsBatch by decide), dif_pos (show (0 : Fin S1000x1000.rank) ∈ dot_S1000x1000_S1000x64_S1000x64_1_0_0_1_n_n.lhsNonContracting by decide)]
  rfl
/-- The left operand's column coordinate is the contraction index. -/
theorem lhs_col (i : S1000x64.Idx) (q : dot_S1000x1000_S1000x64_S1000x64_1_0_0_1_n_n.contr.Idx) :
    (dot_S1000x1000_S1000x64_S1000x64_1_0_0_1_n_n.lhsIdx i q 1).val = (q ⟨0, by decide⟩).val :=
  dot_S1000x1000_S1000x64_S1000x64_1_0_0_1_n_n.lhsIdx_val_of_single rfl i q
/-- The right operand's row coordinate is the contraction index. -/
theorem rhs_row (i : S1000x64.Idx) (q : dot_S1000x1000_S1000x64_S1000x64_1_0_0_1_n_n.contr.Idx) :
    (dot_S1000x1000_S1000x64_S1000x64_1_0_0_1_n_n.rhsIdx i q 0).val = (q ⟨0, by decide⟩).val :=
  dot_S1000x1000_S1000x64_S1000x64_1_0_0_1_n_n.rhsIdx_val_of_single rfl i q
/-- The right operand's column coordinate is the output's column. -/
theorem rhs_col (i : S1000x64.Idx) (q : dot_S1000x1000_S1000x64_S1000x64_1_0_0_1_n_n.contr.Idx) :
    (dot_S1000x1000_S1000x64_S1000x64_1_0_0_1_n_n.rhsIdx i q 1).val = (i 1).val := by
  unfold DotDims.rhsIdx
  rw [dif_neg (show ¬(1 : Fin S1000x64.rank) ∈ dot_S1000x1000_S1000x64_S1000x64_1_0_0_1_n_n.rhsBatch by decide), dif_pos (show (1 : Fin S1000x64.rank) ∈ dot_S1000x1000_S1000x64_S1000x64_1_0_0_1_n_n.rhsNonContracting by decide)]
  rfl

/-- A 1000 × 1000 by 1000 × 64 product into the zero accumulator, at entry `(r, q)`: the sum over the thousand
    inner indices of the products of row `r` of the left with column `q` of the right. -/
theorem matmul_at {φ₁ φ₂ : FTy} (a : FVec Ideal S1000x1000 φ₁) (b : FVec Ideal S1000x64 φ₂) (r : Fin 1000) (q : Fin 64) :
    matmul dot_S1000x1000_S1000x64_S1000x64_1_0_0_1_n_n none a b (constant (F := Ideal) S1000x64 .f32 0x00000000#32) (ix2 r q)
      = ∑ k : Fin 1000, a (ix2 r k) * b (ix2 k q) := by
  simp only [matmul]
  rw [Ideal.matmul_constant_zero_apply, ← Equiv.sum_comp (ValueIdx.contrEquiv1 dot_S1000x1000_S1000x64_S1000x64_1_0_0_1_n_n 1000 rfl rfl).symm]
  refine Finset.sum_congr rfl fun k _ => ?_
  have hk := ValueIdx.contrEquiv1_symm_val dot_S1000x1000_S1000x64_S1000x64_1_0_0_1_n_n 1000 rfl rfl k
  have el : dot_S1000x1000_S1000x64_S1000x64_1_0_0_1_n_n.lhsIdx (ix2 r q) ((ValueIdx.contrEquiv1 dot_S1000x1000_S1000x64_S1000x64_1_0_0_1_n_n 1000 rfl rfl).symm k) = ix2 r k := funext fun a => Fin.ext (by
    match a with
    | ⟨0, _⟩ => exact lhs_row _ _
    | ⟨1, _⟩ => exact (lhs_col _ _).trans hk)
  have er : dot_S1000x1000_S1000x64_S1000x64_1_0_0_1_n_n.rhsIdx (ix2 r q) ((ValueIdx.contrEquiv1 dot_S1000x1000_S1000x64_S1000x64_1_0_0_1_n_n 1000 rfl rfl).symm k) = ix2 k q := funext fun a => Fin.ext (by
    match a with
    | ⟨0, _⟩ => exact (rhs_row _ _).trans hk
    | ⟨1, _⟩ => exact rhs_col _ _)
  rw [el, er]

/-- The body's stored value at entry `(r, q)`: the two products added. The narrowing of the operands' float format is
    the identity on the extended reals, and the shape cast is to the same shape. -/
theorem pay_at (v0 v2 : Vec Ideal S1000x1000 .f32) (v4 v7 : Vec Ideal S1000x64 .f32) (r : Fin 1000) (q : Fin 64) :
    k0_pay1 v0 v2 v4 v7 (ix2 r q)
      = (∑ k : Fin 1000, v0 (ix2 r k) * v4 (ix2 k q)) + ∑ k : Fin 1000, v2 (ix2 r k) * v7 (ix2 k q) := by
  unfold k0_pay1
  rw [addf_apply, matmul_at, matmul_at]
  simp only [truncf_apply, shapeCast_self]

/-! ## What a grid point writes back -/

/-- The zero offsets of a whole-block access, as the constant function. -/
theorem zero_off : (![0, 0] : Fin 2 → Nat) = fun _ => 0 := funext fun a => by fin_cases a <;> rfl

/-- The printed index maps over the fifty points: the two row-blocked inputs and the output sit at block row `t`,
    block column 0; the two weight halves at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Grid point `t` writes back its block of `proj` of the four arrays as the region found them: entry `(r, q)` of the
    block sits at row `1000·t + r`, column `q` of the array; the two row-blocked inputs are read at that same row, and
    the two weight halves whole. -/
theorem flushed_eq (V : (c : Dev nD) → (b : Ref sig .tc) → Buf (Elt Ideal) ((c : Thread nD τ).loc b)) (c : Dev nD)
    (t : Fin cfg0.N) :
    (dat0 (F := Ideal) V c).flushed 4 t
      = ((cfg0.win 4).blk t).view.read (Elt Ideal) (proj (V c main_arg0) (V c main_arg1) (V c main_v13) (V c main_v14)) := by
  show (cfg0.win 4).cut (grid0.coords t) ((dat0 V c).after 4 t) = _
  rw [after0_4]
  unfold out0_4
  rw [View.canon_unit_zero zero_off]
  simp only [View.ld_unit_zero (S := S1000x1000) zero_off, View.ld_unit_zero (S := S1000x64) zero_off]
  refine funext fun (j : S1000x64.Idx) => ?_
  obtain ⟨r, q, rfl⟩ : ∃ (r : Fin 1000) (q : Fin 64), j = ix2 r q := ⟨j 0, j 1, eq_ix2 j⟩
  show k0_pay1 (iblk0 V c 0 t) (iblk0 V c 1 t) (iblk0 V c 2 t) (iblk0 V c 3 t) (ix2 r q)
    = proj (V c main_arg0) (V c main_arg1) (V c main_v13) (V c main_v14) (((cfg0.win 4).blk t).view.emb (ix2 r q))
  rw [pay_at]
  obtain ⟨a0, a1, b0, b1, u0, u1, s0, s1, o0, o1⟩ := index_facts t
  have hxu : ∀ k : Fin 1000, iblk0 V c 0 t (ix2 r k)
      = V c main_arg0 (ix2 ⟨((((cfg0.win 4).blk t).view.emb (ix2 r q)) 0).val, ((((cfg0.win 4).blk t).view.emb (ix2 r q)) 0).isLt⟩ k) := fun k => by
    show V c main_arg0 (((cfg0.win 0).blk t).view.emb (ix2 r k)) = _
    refine congrArg _ (funext fun a => Fin.ext ?_)
    match a with
    | ⟨0, _⟩ => show win0_0.index t (0 : Fin 2) * 1000 + 1 * r.val = win0_4.index t (0 : Fin 2) * 1000 + 1 * r.val; omega
    | ⟨1, _⟩ => show win0_0.index t (1 : Fin 2) * 1000 + 1 * k.val = k.val; omega
  have hxs : ∀ k : Fin 1000, iblk0 V c 1 t (ix2 r k)
      = V c main_arg1 (ix2 ⟨((((cfg0.win 4).blk t).view.emb (ix2 r q)) 0).val, ((((cfg0.win 4).blk t).view.emb (ix2 r q)) 0).isLt⟩ k) := fun k => by
    show V c main_arg1 (((cfg0.win 1).blk t).view.emb (ix2 r k)) = _
    refine congrArg _ (funext fun a => Fin.ext ?_)
    match a with
    | ⟨0, _⟩ => show win0_1.index t (0 : Fin 2) * 1000 + 1 * r.val = win0_4.index t (0 : Fin 2) * 1000 + 1 * r.val; omega
    | ⟨1, _⟩ => show win0_1.index t (1 : Fin 2) * 1000 + 1 * k.val = k.val; omega
  have hwu : ∀ k : Fin 1000, iblk0 V c 2 t (ix2 k q)
      = V c main_v13 (ix2 k ⟨((((cfg0.win 4).blk t).view.emb (ix2 r q)) 1).val, ((((cfg0.win 4).blk t).view.emb (ix2 r q)) 1).isLt⟩) := fun k => by
    show V c main_v13 (((cfg0.win 2).blk t).view.emb (ix2 k q)) = _
    refine congrArg _ (funext fun a => Fin.ext ?_)
    match a with
    | ⟨0, _⟩ => show win0_2.index t (0 : Fin 2) * 1000 + 1 * k.val = k.val; omega
    | ⟨1, _⟩ => show win0_2.index t (1 : Fin 2) * 64 + 1 * q.val = win0_4.index t (1 : Fin 2) * 64 + 1 * q.val; omega
  have hws : ∀ k : Fin 1000, iblk0 V c 3 t (ix2 k q)
      = V c main_v14 (ix2 k ⟨((((cfg0.win 4).blk t).view.emb (ix2 r q)) 1).val, ((((cfg0.win 4).blk t).view.emb (ix2 r q)) 1).isLt⟩) := fun k => by
    show V c main_v14 (((cfg0.win 3).blk t).view.emb (ix2 k q)) = _
    refine congrArg _ (funext fun a => Fin.ext ?_)
    match a with
    | ⟨0, _⟩ => show win0_3.index t (0 : Fin 2) * 1000 + 1 * k.val = k.val; omega
    | ⟨1, _⟩ => show win0_3.index t (1 : Fin 2) * 64 + 1 * q.val = win0_4.index t (1 : Fin 2) * 64 + 1 * q.val; omega
  simp only [hxu, hxs, hwu, hws]
  rfl

/-! ## The fifty blocks tile the array -/

/-- An entry of the array lies in point `t`'s block exactly when each coordinate lies in the block's range on its axis. -/
theorem mem_block (t : Fin cfg0.N) (i : S50000x64.Idx) :
    i ∈ ((cfg0.win 4).blk t).view.set
      ↔ ∀ a : Fin 2, win0_4.index t a * S1000x64.size a ≤ (i a).val ∧ (i a).val < win0_4.index t a * S1000x64.size a + S1000x64.size a := by
  show i ∈ ((View.whole main_v15).slice (win0_4.rect t)).set ↔ _
  rw [View.set_slice_whole, Rect.mem_set_unit]
  exact Iff.rfl

/-- Row `p` of the array lies in the block of point `p / 1000`, and every point writes its block back. -/
theorem covered (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ : ∃ t : Fin cfg0.N, t.val = (i 0).val / 1000 :=
    ⟨⟨(i 0).val / 1000, lt_of_lt_of_eq (by omega) N_0.symm⟩, rfl⟩
  obtain ⟨a0, a1, b0, b1, u0, u1, s0, s1, o0, o1⟩ := index_facts t
  refine ⟨t, flush0_4 t, ?_⟩
  rw [mem_block]
  intro a
  match a with
  | ⟨0, _⟩ =>
    show win0_4.index t (0 : Fin 2) * 1000 ≤ (i 0).val ∧ (i 0).val < win0_4.index t (0 : Fin 2) * 1000 + 1000
    omega
  | ⟨1, _⟩ =>
    show win0_4.index t (1 : Fin 2) * 64 ≤ (i 1).val ∧ (i 1).val < win0_4.index t (1 : Fin 2) * 64 + 64
    omega

/-! ## The array after the region -/

/-- The first region's output array after its fifty write-backs, from the arrays the region was entered with. -/
theorem array_eq (V : (c : Dev nD) → (b : Ref sig .tc) → Buf (Elt Ideal) ((c : Thread nD τ).loc b)) (c : Dev nD) :
    (dat0 (F := Ideal) V c).arrAt 4 cfg0.N
      = proj (V c main_arg0) (V c main_arg1) (V c main_v13) (V c main_v14) :=
  (dat0 (F := Ideal) V c).arrAt_eq_of_cover 4 (proj (V c main_arg0) (V c main_arg1) (V c main_v13) (V c main_v14))
    (fun t _ => flushed_eq V c t) covered

end Cert.KernelIdeal.Layer0

end
-- ==== Proof.GateValue.lean ====
/-
  The second pallas_call's result array. Grid point `t` (of 125) holds rows `400·t … 400·t + 399` of the aggregated
  features (64 wide), of `x_u` and of `x_s`, the whole 64 × 2000 weight and the 1 × 2000 bias row, and writes back the
  same rows of the output: entry `(r, q)` is `(Σ_k agg[r, k]·W1[k, q] + b1[q])·x_u[r, q] + (Σ_k agg[r, k]·W1[k, 1000 + q]
  + b1[1000 + q])·x_s[r, q]`. The 125 blocks tile the 50000 rows.
-/
import proofs.«167163_j1649267442174_1_alg».proof.Proof.Gen.KernelIdeal.Frame
import proofs.«167163_j1649267442174_1_alg».proof.Proof.Spec

set_option maxRecDepth 16384

noncomputable section

namespace Cert.KernelIdeal.Gate

open Cert.KernelIdeal Cert.KernelIdeal.Gen Cert.GraphGate
open Idealize.ShloMosaic Idealize.ShloMosaic.TcCoe Idealize.ShloMosaic.ValueIdx Idealize.SL.Sem
open Idealize.ShloMosaic.Pipeline (Dat Cfg Window)
open scoped BigOperators

/-! ## The block's product: one entry of the 400 × 64 by 64 × 2000 contraction -/

/-- The left operand's row coordinate is the output's row. -/
theorem lhs_row (i : S400x2000.Idx) (q : dot_S400x64_S64x2000_S400x2000_1_0_0_1_n_n.contr.Idx) :
    (dot_S400x64_S64x2000_S400x2000_1_0_0_1_n_n.lhsIdx i q 0).val = (i 0).val := by
  unfold DotDims.lhsIdx
  rw [dif_neg (show ¬(0 : Fin S400x64.rank) ∈ dot_S400x64_S64x2000_S400x2000_1_0_0_1_n_n.lhsBatch by decide), dif_pos (show (0 : Fin S400x64.rank) ∈ dot_S400x64_S64x2000_S400x2000_1_0_0_1_n_n.lhsNonContracting by decide)]
  rfl
/-- The left operand's column coordinate is the contracted one. -/
theorem lhs_col (i : S400x2000.Idx) (q : dot_S400x64_S64x2000_S400x2000_1_0_0_1_n_n.contr.Idx) :
    (dot_S400x64_S64x2000_S400x2000_1_0_0_1_n_n.lhsIdx i q 1).val = (q ⟨0, by decide⟩).val :=
  dot_S400x64_S64x2000_S400x2000_1_0_0_1_n_n.lhsIdx_val_of_single rfl i q
/-- The right operand's row coordinate is the contracted one. -/
theorem rhs_row (i : S400x2000.Idx) (q : dot_S400x64_S64x2000_S400x2000_1_0_0_1_n_n.contr.Idx) :
    (dot_S400x64_S64x2000_S400x2000_1_0_0_1_n_n.rhsIdx i q 0).val = (q ⟨0, by decide⟩).val :=
  dot_S400x64_S64x2000_S400x2000_1_0_0_1_n_n.rhsIdx_val_of_single rfl i q
/-- The right operand's column coordinate is the output's column. -/
theorem rhs_col (i : S400x2000.Idx) (q : dot_S400x64_S64x2000_S400x2000_1_0_0_1_n_n.contr.Idx) :
    (dot_S400x64_S64x2000_S400x2000_1_0_0_1_n_n.rhsIdx i q 1).val = (i 1).val := by
  unfold DotDims.rhsIdx
  rw [dif_neg (show ¬(1 : Fin S64x2000.rank) ∈ dot_S400x64_S64x2000_S400x2000_1_0_0_1_n_n.rhsBatch by decide), dif_pos (show (1 : Fin S64x2000.rank) ∈ dot_S400x64_S64x2000_S400x2000_1_0_0_1_n_n.rhsNonContracting by decide)]
  rfl

/-- Entry `(r, q)` of the product started from zero is `Σ_k a[r, k]·b[k, q]`. -/
theorem matmul_at {φ₁ φ₂ : FTy} (a : FVec Ideal S400x64 φ₁) (b : FVec Ideal S64x2000 φ₂) (r : Fin 400) (q : Fin 2000) :
    matmul dot_S400x64_S64x2000_S400x2000_1_0_0_1_n_n none a b (constant (F := Ideal) S400x2000 .f32 0x00000000#32) (ix2 r q)
      = ∑ k : Fin 64, a (ix2 r k) * b (ix2 k q) := by
  show FloatOps.matmul dot_S400x64_S64x2000_S400x2000_1_0_0_1_n_n none a b (constant (F := Ideal) S400x2000 .f32 0x00000000#32) (ix2 r q) = _
  rw [Ideal.matmul_constant_zero_apply, ← Equiv.sum_comp (ValueIdx.contrEquiv1 dot_S400x64_S64x2000_S400x2000_1_0_0_1_n_n 64 rfl rfl).symm]
  refine Finset.sum_congr rfl fun k _ => ?_
  have hk := ValueIdx.contrEquiv1_symm_val dot_S400x64_S64x2000_S400x2000_1_0_0_1_n_n 64 rfl rfl k
  have el : dot_S400x64_S64x2000_S400x2000_1_0_0_1_n_n.lhsIdx (ix2 r q) ((ValueIdx.contrEquiv1 dot_S400x64_S64x2000_S400x2000_1_0_0_1_n_n 64 rfl rfl).symm k) = ix2 r k := funext fun a => Fin.ext (by
    match a with
    | ⟨0, _⟩ => exact lhs_row _ _
    | ⟨1, _⟩ => exact (lhs_col _ _).trans hk)
  have er : dot_S400x64_S64x2000_S400x2000_1_0_0_1_n_n.rhsIdx (ix2 r q) ((ValueIdx.contrEquiv1 dot_S400x64_S64x2000_S400x2000_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The body's payload at an index -/

/-- Entry `(r, q)` of what the body stores: the block's product plus the bias row, its first thousand columns times the
    `x_u` block and its last thousand times the `x_s` block, added. The narrowing of the operands is the identity on the
    extended reals. -/
theorem payload_at (v0 : Vec Ideal S400x64 .f32) (v3 : Vec Ideal S64x2000 .f32) (v6 : Vec Ideal S1x2000 .f32)
    (v12 v14 : Vec Ideal S400x1000 .f32) (r : Fin 400) (q : Fin 1000) :
    k1_pay1 v0 v3 v6 v12 v14 (ix2 r q)
      = ((∑ k : Fin 64, v0 (ix2 r k) * v3 (ix2 k ⟨q.val, by omega⟩)) + v6 (ix2 0 ⟨q.val, by omega⟩)) * v12 (ix2 r q)
        + ((∑ k : Fin 64, v0 (ix2 r k) * v3 (ix2 k ⟨1000 + q.val, by omega⟩)) + v6 (ix2 0 ⟨1000 + q.val, by omega⟩)) * v14 (ix2 r q) := by
  unfold k1_pay1
  simp only [shapeCast_self]
  rw [addf_apply, mulf_apply, mulf_apply,
    extractStridedSlice_apply ![0, 0] _ _ (ix2 r q) (ix2 r ⟨q.val, by omega⟩) (fun a => by
      match a with
      | ⟨0, _⟩ => show r.val = 0 + r.val; omega
      | ⟨1, _⟩ => show q.val = 0 + q.val; omega),
    extractStridedSlice_apply ![0, 1000] _ _ (ix2 r q) (ix2 r ⟨1000 + q.val, by omega⟩) (fun a => by
      match a with
      | ⟨0, _⟩ => show r.val = 0 + r.val; omega
      | ⟨1, _⟩ => show 1000 + q.val = 1000 + q.val; rfl),
    addf_apply, addf_apply, matmul_at, matmul_at,
    broadcastTo_apply v6 _ (ix2 r ⟨q.val, by omega⟩) (ix2 0 ⟨q.val, by omega⟩) (fun a => by
      match a with
      | ⟨0, _⟩ => show 0 = if (1 : Nat) = 1 then 0 else r.val; rw [if_pos rfl]
      | ⟨1, _⟩ => show q.val = if (2000 : Nat) = 1 then 0 else q.val; rw [if_neg (by decide)]),
    broadcastTo_apply v6 _ (ix2 r ⟨1000 + q.val, by omega⟩) (ix2 0 ⟨1000 + q.val, by omega⟩) (fun a => by
      match a with
      | ⟨0, _⟩ => show 0 = if (1 : Nat) = 1 then 0 else r.val; rw [if_pos rfl]
      | ⟨1, _⟩ => show 1000 + q.val = if (2000 : Nat) = 1 then 0 else 1000 + q.val; rw [if_neg (by decide)])]
  rfl

/-! ## The blocks a grid point holds -/

theorem zero_offsets : (![0, 0] : Fin 2 → Nat) = fun _ => 0 := funext fun a => by fin_cases a <;> rfl

/-- The printed index maps, decided over the grid: point `t` holds row block `t` (column block 0) of the aggregated
    features, of `x_u`, of `x_s` and of the output, and block `(0, 0)` of the weight and of the bias row. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `r` of block `t` is row `400·t + r` of the array. -/
theorem row_lt (t : Fin cfg1.N) (r : Fin 400) : 400 * t.val + r.val < 50000 := by
  have hN : cfg1.N = 125 := N_1
  have := t.isLt
  omega

section Blocks

variable (V : (c : Dev nD) → (b : Ref sig .tc) → Buf (Elt Ideal) ((c : Thread nD τ).loc b))

/-- The aggregated features' block at point `t`: rows `400·t … 400·t + 399`, all 64 columns. -/
theorem agg_block (c : Dev nD) (t : Fin cfg1.N) (r : Fin 400) (k : Fin 64) :
    (iblk1 (F := Ideal) V c 0 t : Vec Ideal S400x64 .f32) (ix2 r k)
      = (V c main_v51 : S50000x64.Idx → EReal) (ix2 ⟨400 * t.val + r.val, row_lt t r⟩ k) := by
  obtain ⟨e0, e1, -⟩ := block_indices t
  unfold iblk1
  rw [View.read_apply]
  show V c main_v51 _ = V c main_v51 _
  congr 1
  funext a
  apply Fin.ext
  match a with
  | ⟨0, _⟩ => show win1_0.index t (0 : Fin 2) * 400 + 1 * r.val = 400 * t.val + r.val; rw [e0]; omega
  | ⟨1, _⟩ => show win1_0.index t (1 : Fin 2) * 64 + 1 * k.val = k.val; rw [e1]; omega

/-- The `x_u` block at point `t`: rows `400·t … 400·t + 399`, all 1000 columns. -/
theorem xu_block (c : Dev nD) (t : Fin cfg1.N) (r : Fin 400) (q : Fin 1000) :
    (iblk1 (F := Ideal) V c 3 t : Vec Ideal S400x1000 .f32) (ix2 r q)
      = (V c main_arg0 : S50000x1000.Idx → EReal) (ix2 ⟨400 * t.val + r.val, row_lt t r⟩ q) := by
  obtain ⟨-, -, -, -, -, -, e0, e1, -⟩ := block_indices t
  unfold iblk1
  rw [View.read_apply]
  show V c main_arg0 _ = V c main_arg0 _
  congr 1
  funext a
  apply Fin.ext
  match a with
  | ⟨0, _⟩ => show win1_3.index t (0 : Fin 2) * 400 + 1 * r.val = 400 * t.val + r.val; rw [e0]; omega
  | ⟨1, _⟩ => show win1_3.index t (1 : Fin 2) * 1000 + 1 * q.val = q.val; rw [e1]; omega

/-- The `x_s` block at point `t`: the same rows of the other feature array. -/
theorem xs_block (c : Dev nD) (t : Fin cfg1.N) (r : Fin 400) (q : Fin 1000) :
    (iblk1 (F := Ideal) V c 4 t : Vec Ideal S400x1000 .f32) (ix2 r q)
      = (V c main_arg1 : S50000x1000.Idx → EReal) (ix2 ⟨400 * t.val + r.val, row_lt t r⟩ q) := by
  obtain ⟨-, -, -, -, -, -, -, -, e0, e1, -⟩ := block_indices t
  unfold iblk1
  rw [View.read_apply]
  show V c main_arg1 _ = V c main_arg1 _
  congr 1
  funext a
  apply Fin.ext
  match a with
  | ⟨0, _⟩ => show win1_4.index t (0 : Fin 2) * 400 + 1 * r.val = 400 * t.val + r.val; rw [e0]; omega
  | ⟨1, _⟩ => show win1_4.index t (1 : Fin 2) * 1000 + 1 * q.val = q.val; rw [e1]; omega

/-- Every point holds the whole 64 × 2000 weight. -/
theorem weight_block (c : Dev nD) (t : Fin cfg1.N) :
    (iblk1 (F := Ideal) V c 1 t : Vec Ideal S64x2000 .f32) = (V c main_arg4 : S64x2000.Idx → EReal) := by
  obtain ⟨-, -, e0, e1, -⟩ := block_indices t
  funext j
  obtain ⟨k, q, rfl⟩ : ∃ (k : Fin 64) (q : Fin 2000), j = ix2 k q := ⟨j 0, j 1, eq_ix2 j⟩
  unfold iblk1
  rw [View.read_apply]
  show V c main_arg4 _ = V c main_arg4 _
  congr 1
  funext a
  apply Fin.ext
  match a with
  | ⟨0, _⟩ => show win1_1.index t (0 : Fin 2) * 64 + 1 * k.val = k.val; rw [e0]; omega
  | ⟨1, _⟩ => show win1_1.index t (1 : Fin 2) * 2000 + 1 * q.val = q.val; rw [e1]; omega

/-- Every point holds the whole bias row. -/
theorem bias_block (c : Dev nD) (t : Fin cfg1.N) :
    (iblk1 (F := Ideal) V c 2 t : Vec Ideal S1x2000 .f32) = (V c main_v52 : S1x2000.Idx → EReal) := by
  obtain ⟨-, -, -, -, e0, e1, -⟩ := block_indices t
  funext j
  obtain ⟨k, q, rfl⟩ : ∃ (k : Fin 1) (q : Fin 2000), j = ix2 k q := ⟨j 0, j 1, eq_ix2 j⟩
  unfold iblk1
  rw [View.read_apply]
  show V c main_v52 _ = V c main_v52 _
  congr 1
  funext a
  apply Fin.ext
  match a with
  | ⟨0, _⟩ => show win1_2.index t (0 : Fin 2) * 1 + 1 * k.val = k.val; rw [e0]; omega
  | ⟨1, _⟩ => show win1_2.index t (1 : Fin 2) * 2000 + 1 * q.val = q.val; rw [e1]; omega

/-! ## One entry of a point's block is the gated output's entry -/

/-- For blocks that are rows `400·n … 400·n + 399` of the aggregated features, of `x_u` and of `x_s`, with the whole
    weight and bias, entry `(r, q)` of the payload is entry `(400·n + r, q)` of the gated output. -/
theorem block_entry (agg : FVec Ideal ⟨2, ![50000, 64]⟩ .f32) (w1 : FVec Ideal ⟨2, ![64, 2000]⟩ .f32)
    (b1 : FVec Ideal ⟨2, ![1, 2000]⟩ .f32) (xu xs : FVec Ideal ⟨2, ![50000, 1000]⟩ .f32)
    (x0 : Vec Ideal S400x64 .f32) (x1 : Vec Ideal S64x2000 .f32) (x2 : Vec Ideal S1x2000 .f32) (x3 x4 : Vec Ideal S400x1000 .f32)
    (n : Nat) (hn : ∀ r : Fin 400, 400 * n + r.val < 50000)
    (h0 : ∀ (r : Fin 400) (k : Fin 64), x0 (ix2 r k) = agg (ix2 ⟨400 * n + r.val, hn r⟩ k))
    (h1 : x1 = w1) (h2 : x2 = b1)
    (h3 : ∀ (r : Fin 400) (q : Fin 1000), x3 (ix2 r q) = xu (ix2 ⟨400 * n + r.val, hn r⟩ q))
    (h4 : ∀ (r : Fin 400) (q : Fin 1000), x4 (ix2 r q) = xs (ix2 ⟨400 * n + r.val, hn r⟩ q))
    (r : Fin 400) (q : Fin 1000) :
    k1_pay1 x0 x1 x2 x3 x4 (ix2 r q) = gateRow agg w1 b1 xu xs (ix2 ⟨400 * n + r.val, hn r⟩ q) := by
  rw [payload_at]
  subst h1 h2
  simp only [h0, h3, h4]
  rfl

/-! ## What a point writes back, and the cover -/

/-- Point `t` writes back block `t` of the gated output of the arrays the region was entered with. -/
theorem flushed_eq (c : Dev nD) (t : Fin cfg1.N) :
    (dat1 (F := Ideal) V c).flushed 5 t = ((cfg1.win 5).blk t).view.read (Elt Ideal)
      (gateRow (V c main_v51) (V c main_arg4) (V c main_v52) (V c main_arg0) (V c main_arg1)) := by
  show (cfg1.win 5).cut (grid1.coords t) ((dat1 V c).after 5 t) = _
  rw [after1_5]
  unfold out1_5
  rw [View.canon_unit_zero zero_offsets]
  simp only [View.ld_unit_zero (S := S400x64) zero_offsets, View.ld_unit_zero (S := S64x2000) zero_offsets,
    View.ld_unit_zero (S := S1x2000) zero_offsets, View.ld_unit_zero (S := S400x1000) zero_offsets]
  obtain ⟨-, -, -, -, -, -, -, -, -, -, e0, e1⟩ := block_indices t
  funext j
  obtain ⟨r, q, rfl⟩ : ∃ (r : Fin 400) (q : Fin 1000), j = ix2 r q := ⟨j 0, j 1, eq_ix2 j⟩
  show k1_pay1 (iblk1 V c 0 t) (iblk1 V c 1 t) (iblk1 V c 2 t) (iblk1 V c 3 t) (iblk1 V c 4 t) (ix2 r q)
    = gateRow (V c main_v51) (V c main_arg4) (V c main_v52) (V c main_arg0) (V c main_arg1) (((cfg1.win 5).blk t).view.emb (ix2 r q))
  refine (block_entry (V c main_v51) (V c main_arg4) (V c main_v52) (V c main_arg0) (V c main_arg1) _ _ _ _ _ t.val (row_lt t)
    (agg_block V c t) (weight_block V c t) (bias_block V c t) (xu_block V c t) (xs_block V c t) r q).trans ?_
  congr 1
  funext a
  apply Fin.ext
  match a with
  | ⟨0, _⟩ => show 400 * t.val + r.val = win1_5.index t (0 : Fin 2) * 400 + 1 * r.val; rw [e0]; omega
  | ⟨1, _⟩ => show q.val = win1_5.index t (1 : Fin 2) * 1000 + 1 * q.val; rw [e1]; omega

/-- An index of the output is in point `t`'s block iff each coordinate is in the block's range on its axis. -/
theorem mem_block (t : Fin cfg1.N) (i : S50000x1000.Idx) :
    i ∈ ((cfg1.win 5).blk t).view.set ↔ ∀ a : Fin 2, win1_5.index t a * S400x1000.size a ≤ (i a).val
      ∧ (i a).val < win1_5.index t a * S400x1000.size a + S400x1000.size a := by
  show i ∈ ((View.whole main_v53).slice (win1_5.rect t)).set ↔ _
  rw [View.set_slice_whole, Rect.mem_set_unit]
  exact Iff.rfl

/-- The 125 row blocks tile the 50000 rows: row `p` is in block `p / 400`. -/
theorem covered (i : S50000x1000.Idx) :
    ∃ t : Fin cfg1.N, (cfg1.win 5).flush t = true ∧ i ∈ ((cfg1.win 5).blk t).view.set := by
  have hN : cfg1.N = 125 := N_1
  have hi0 : (i 0).val < 50000 := (i 0).isLt
  have hi1 : (i 1).val < 1000 := (i 1).isLt
  have ht : (i 0).val / 400 < cfg1.N := by omega
  obtain ⟨-, -, -, -, -, -, -, -, -, -, e0, e1⟩ := block_indices ⟨(i 0).val / 400, ht⟩
  refine ⟨⟨(i 0).val / 400, ht⟩, flush1_5 _, ?_⟩
  rw [mem_block]
  intro a
  match a with
  | ⟨0, _⟩ =>
    show win1_5.index ⟨(i 0).val / 400, ht⟩ (0 : Fin 2) * 400 ≤ (i 0).val
      ∧ (i 0).val < win1_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win1_5.index ⟨(i 0).val / 400, ht⟩ (1 : Fin 2) * 1000 ≤ (i 1).val
      ∧ (i 1).val < win1_5.index ⟨(i 0).val / 400, ht⟩ (1 : Fin 2) * 1000 + 1000
    rw [e1]; omega

end Blocks

/-- The second region's output array after its 125 write-backs, from the arrays the region was entered with. -/
theorem array_eq (V : (c : Dev nD) → (b : Ref sig .tc) → Buf (Elt Ideal) ((c : Thread nD τ).loc b)) (c : Dev nD) :
    (dat1 (F := Ideal) V c).arrAt 5 cfg1.N
      = gateRow (V c main_v51) (V c main_arg4) (V c main_v52) (V c main_arg0) (V c main_arg1) := by
  exact (dat1 (F := Ideal) V c).arrAt_eq_of_cover 5 _ (fun t _ => flushed_eq V c t) covered

end Cert.KernelIdeal.Gate

end
-- ==== Proof.HostChain.lean ====
/-
  The host operations of the kernel's program between its launch and its two pallas_calls, read back.

  Between the two calls the program does two rounds of message passing on 64-wide node features: scale row `n` by
  `norm_src[n] = rsqrt (max (out-degree n) 1)`, gather the rows named by `src` (a negative index wrapped by 50000), add
  them into the rows named by `dst`, scale row `n` by `norm_dst[n]` (`spread`); between the rounds the bias `b0` is added
  and the result clamped at zero below. `agg` is that chain as ONE function of the first call's result, the bias and
  the two index arrays; it is never opened: the reference applies the very same chain to its own first product.
-/
import proofs.«167163_j1649267442174_1_alg».proof.Proof.Gen.KernelIdeal.Frame
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]

/-- `rsqrt (max (number of edges whose index is n) 1)`, per node `n`: the degree counted by adding ones. -/
def degNorm (idx : (⟨S1600000, .i32⟩ : BufTy).Contents (Elt F)) : (⟨S50000, .f32⟩ : BufTy).Contents (Elt F) :=
  Host.rsqrt (maximumf
    (Host.scatterAdd scatter_S50000_S1600000x1_S1600000_n_0_0_1
      (broadcastInDim S50000 ![] bcast_S_S50000 (constant (F := F) S_ .f32 0x00000000#32))
      (broadcastInDim S1600000x1 ![0] bcast_S1600000_S1600000x1_0 idx)
      (broadcastInDim S1600000 ![] bcast_S_S1600000 (constant (F := F) S_ .f32 0x3F800000#32)))
    (broadcastInDim S50000 ![] bcast_S_S50000 (constant (F := F) S_ .f32 0x3F800000#32)))

/-- A per-node scalar laid along the 64 features. -/
def alongFeatures (v : (⟨S50000, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 v)

/-- The gather's row numbers: a negative index moved up by 50000, as a column. -/
def wrapped (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- One round of message passing: scale by `norm_src`, gather by `src`, add into `dst`, scale by `norm_dst`. -/
def spread (h : (⟨S50000x64, .f32⟩ : BufTy).Contents (Elt F)) (src dst : (⟨S1600000, .i32⟩ : BufTy).Contents (Elt F)) :
    (⟨S50000x64, .f32⟩ : BufTy).Contents (Elt F) :=
  mulf
    (Host.scatterAdd scatter_S50000x64_S1600000x1_S1600000x64_1_0_0_1
      (broadcastInDim S50000x64 ![] bcast_S_S50000x64 (constant (F := F) S_ .f32 0x00000000#32))
      (broadcastInDim S1600000x1 ![0] bcast_S1600000_S1600000x1_0 dst)
      (Host.gather gather_S50000x64_S1600000x1_S1600000x64_1_0_n_n_0_1_164 (mulf h (alongFeatures (degNorm src))) (wrapped src)))
    (alongFeatures (degNorm dst))

/-- The whole chain between the two calls: a round, the bias and the clamp at zero, a second round. -/
def agg (h0 : (⟨S50000x64, .f32⟩ : BufTy).Contents (Elt F)) (b0 : (⟨S64, .f32⟩ : BufTy).Contents (Elt F))
    (src dst : (⟨S1600000, .i32⟩ : BufTy).Contents (Elt F)) : (⟨S50000x64, .f32⟩ : BufTy).Contents (Elt F) :=
  spread
    (maximumf
      (addf (spread h0 src dst)
        (broadcastInDim S50000x64 ![0, 1] bcast_S1x64_S50000x64_0_1 (broadcastInDim S1x64 ![1] bcast_S64_S1x64_1 b0)))
      (broadcastInDim S50000x64 ![] bcast_S_S50000x64 (constant (F := F) S_ .f32 0x00000000#32)))
    src dst

variable (m : (ℓ : Loc nD τ sig) → Buf (Elt F) ℓ) (ρ : Dev nD → PrngReg)

/-! ## A stretch of host operations leaves alone what it does not write -/

/-- Closes "after the stretch the buffer holds what it held": no operation of the stretch has it as its result. -/
local macro "unwritten" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The first call's arrays as it finds them -/

theorem W1_arg0 (c : Dev nD) : W1 m ρ c (Proc.devRef .tc main_arg0) = W0 m ρ c (Proc.devRef .tc main_arg0) := by
  unwritten hostOps0
theorem W1_arg1 (c : Dev nD) : W1 m ρ c (Proc.devRef .tc main_arg1) = W0 m ρ c (Proc.devRef .tc main_arg1) := by
  unwritten hostOps0

theorem V1_arg0 (c : Dev nD) : V1 m ρ c main_arg0 = m ((c : Thread nD τ).loc main_arg0) :=
  W1_arg0 m ρ c
theorem V1_arg1 (c : Dev nD) : V1 m ρ c main_arg1 = m ((c : Thread nD τ).loc main_arg1) :=
  W1_arg1 m ρ c
/-- The top half of the weight, cut out by the host before the call. -/
theorem V1_v13 (c : Dev nD) :
    V1 m ρ c main_v13 = extractStridedSlice S1000x64 ![0, 0] (m ((c : Thread nD τ).loc main_arg2)) slices_S2000x64_S1000x64_0_0 := by
  show StableHlo.after hostOps0 _ (Proc.devRef .tc main_v13) = _
  after_results
/-- The bottom half of the weight. -/
theorem V1_v14 (c : Dev nD) :
    V1 m ρ c main_v14 = extractStridedSlice S1000x64 ![1000, 0] (m ((c : Thread nD τ).loc main_arg2)) slices_S2000x64_S1000x64_1000_0 := by
  show StableHlo.after hostOps0 _ (Proc.devRef .tc main_v14) = _
  after_results

/-! ## Each stretch as a function of the contents it is entered with -/

/-- One round with the two degree norms given; `spread` is this at the norms of `src` and `dst`. -/
def roundWith (h : (⟨S50000x64, .f32⟩ : BufTy).Contents (Elt F)) (ns nd : (⟨S50000, .f32⟩ : BufTy).Contents (Elt F))
    (src dst : (⟨S1600000, .i32⟩ : BufTy).Contents (Elt F)) : (⟨S50000x64, .f32⟩ : BufTy).Contents (Elt F) :=
  mulf
    (Host.scatterAdd scatter_S50000x64_S1600000x1_S1600000x64_1_0_0_1
      (broadcastInDim S50000x64 ![] bcast_S_S50000x64 (constant (F := F) S_ .f32 0x00000000#32))
      (broadcastInDim S1600000x1 ![0] bcast_S1600000_S1600000x1_0 dst)
      (Host.gather gather_S50000x64_S1600000x1_S1600000x64_1_0_n_n_0_1_164 (mulf h (alongFeatures ns)) (wrapped src)))
    (alongFeatures nd)

theorem spread_eq (h : (⟨S50000x64, .f32⟩ : BufTy).Contents (Elt F)) (src dst : (⟨S1600000, .i32⟩ : BufTy).Contents (Elt F)) :
    spread h src dst = roundWith h (degNorm src) (degNorm dst) src dst := rfl

section Stretches

variable (V : Valuation τ sig (Elt F))

/-- The first stretch leaves the norm of the out-degrees, counted from the sources. -/
theorem hostOps0_v9 : StableHlo.after hostOps0 V (Proc.devRef .tc main_v9) = degNorm (V (Proc.devRef .tc main_arg6)) := by
  after_results
  rfl
/-- And the norm of the in-degrees, counted from the destinations. -/
theorem hostOps0_v12 : StableHlo.after hostOps0 V (Proc.devRef .tc main_v12) = degNorm (V (Proc.devRef .tc main_arg7)) := by
  after_results
  rfl
/-- The second stretch: a round on the first call's result, then the bias. -/
theorem hostOps1_v34 :
    StableHlo.after hostOps1 V (Proc.devRef .tc main_v34)
      = addf
          (roundWith (V (Proc.devRef .tc main_v15)) (V (Proc.devRef .tc main_v9)) (V (Proc.devRef .tc main_v12))
            (V (Proc.devRef .tc main_arg6)) (V (Proc.devRef .tc main_arg7)))
          (broadcastInDim S50000x64 ![0, 1] bcast_S1x64_S50000x64_0_1
            (broadcastInDim S1x64 ![1] bcast_S64_S1x64_1 (V (Proc.devRef .tc main_arg3)))) := by
  after_results_simp
  rfl
/-- The third stretch: the clamp at zero. -/
theorem hostOps1_1_v35 :
    StableHlo.after hostOps1_1 V (Proc.devRef .tc main_v35)
      = maximumf (V (Proc.devRef .tc main_v34))
          (broadcastInDim S50000x64 ![] bcast_S_S50000x64 (constant (F := F) S_ .f32 0x00000000#32)) := by
  after_results
  rfl
/-- The fourth stretch: a second round. -/
theorem hostOps1_2_v51 :
    StableHlo.after hostOps1_2 V (Proc.devRef .tc main_v51)
      = roundWith (V (Proc.devRef .tc main_v35)) (V (Proc.devRef .tc main_v9)) (V (Proc.devRef .tc main_v12))
          (V (Proc.devRef .tc main_arg6)) (V (Proc.devRef .tc main_arg7)) := by
  after_results_simp
  rfl
/-- And the bias vector of the second layer laid out as a row. -/
theorem hostOps1_2_v52 :
    StableHlo.after hostOps1_2 V (Proc.devRef .tc main_v52)
      = shapeCast S1x2000 (V (Proc.devRef .tc main_arg5)) shapeCasts_S2000_S1x2000 := by
  after_results_simp
  rfl

end Stretches

/-! ## The buffers the chain reads, boundary by boundary

Each stretch re-reads the two norms and the two index arrays at the contents it is entered with; none of the stretches
and neither call writes them (nor the first layer's bias), so each of them is, at every boundary, what the first
stretch left or what was launched. -/

/-! ### At the first call's entry -/

theorem W1_v9 (c : Dev nD) : W1 m ρ c (Proc.devRef .tc main_v9) = degNorm (m ((c : Thread nD τ).loc main_arg6)) :=
  hostOps0_v9 (W0 m ρ c)
theorem W1_v12 (c : Dev nD) : W1 m ρ c (Proc.devRef .tc main_v12) = degNorm (m ((c : Thread nD τ).loc main_arg7)) :=
  hostOps0_v12 (W0 m ρ c)
theorem W1_arg3 (c : Dev nD) : W1 m ρ c (Proc.devRef .tc main_arg3) = W0 m ρ c (Proc.devRef .tc main_arg3) := by
  unwritten hostOps0
theorem W1_arg4 (c : Dev nD) : W1 m ρ c (Proc.devRef .tc main_arg4) = W0 m ρ c (Proc.devRef .tc main_arg4) := by
  unwritten hostOps0
theorem W1_arg5 (c : Dev nD) : W1 m ρ c (Proc.devRef .tc main_arg5) = W0 m ρ c (Proc.devRef .tc main_arg5) := by
  unwritten hostOps0
theorem W1_arg6 (c : Dev nD) : W1 m ρ c (Proc.devRef .tc main_arg6) = W0 m ρ c (Proc.devRef .tc main_arg6) := by
  unwritten hostOps0
theorem W1_arg7 (c : Dev nD) : W1 m ρ c (Proc.devRef .tc main_arg7) = W0 m ρ c (Proc.devRef .tc main_arg7) := by
  unwritten hostOps0

/-! ### At the first call's exit: the call's arrays are its two operands, the two halves of the weight and its result -/

theorem W2_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_arg1 (c : Dev nD) : W2 m ρ c (Proc.devRef .tc main_arg1) = W1 m ρ c (Proc.devRef .tc main_arg1) :=
  (W2_arr m ρ c 1).trans (((dat0 (V1 m ρ) c).arrAt_in 1 rfl _).trans (A_eq0 (V1 m ρ) c 1))
theorem W2_arg3 (c : Dev nD) : W2 m ρ c (Proc.devRef .tc main_arg3) = W1 m ρ c (Proc.devRef .tc main_arg3) :=
  W2_of_ne m ρ c main_arg3 (by decide)
theorem W2_arg4 (c : Dev nD) : W2 m ρ c (Proc.devRef .tc main_arg4) = W1 m ρ c (Proc.devRef .tc main_arg4) :=
  W2_of_ne m ρ c main_arg4 (by decide)
theorem W2_arg5 (c : Dev nD) : W2 m ρ c (Proc.devRef .tc main_arg5) = W1 m ρ c (Proc.devRef .tc main_arg5) :=
  W2_of_ne m ρ c main_arg5 (by decide)
theorem W2_arg6 (c : Dev nD) : W2 m ρ c (Proc.devRef .tc main_arg6) = W1 m ρ c (Proc.devRef .tc main_arg6) :=
  W2_of_ne m ρ c main_arg6 (by decide)
theorem W2_arg7 (c : Dev nD) : W2 m ρ c (Proc.devRef .tc main_arg7) = W1 m ρ c (Proc.devRef .tc main_arg7) :=
  W2_of_ne m ρ c main_arg7 (by decide)
theorem W2_v9 (c : Dev nD) : W2 m ρ c (Proc.devRef .tc main_v9) = W1 m ρ c (Proc.devRef .tc main_v9) :=
  W2_of_ne m ρ c main_v9 (by decide)
theorem W2_v12 (c : Dev nD) : W2 m ρ c (Proc.devRef .tc main_v12) = W1 m ρ c (Proc.devRef .tc main_v12) :=
  W2_of_ne m ρ c main_v12 (by decide)

/-! ### After the first round and the bias -/

theorem W3_arg0 (c : Dev nD) : W3 m ρ c (Proc.devRef .tc main_arg0) = W2 m ρ c (Proc.devRef .tc main_arg0) := by
  unwritten hostOps1
theorem W3_arg1 (c : Dev nD) : W3 m ρ c (Proc.devRef .tc main_arg1) = W2 m ρ c (Proc.devRef .tc main_arg1) := by
  unwritten hostOps1
theorem W3_arg4 (c : Dev nD) : W3 m ρ c (Proc.devRef .tc main_arg4) = W2 m ρ c (Proc.devRef .tc main_arg4) := by
  unwritten hostOps1
theorem W3_arg5 (c : Dev nD) : W3 m ρ c (Proc.devRef .tc main_arg5) = W2 m ρ c (Proc.devRef .tc main_arg5) := by
  unwritten hostOps1
theorem W3_arg6 (c : Dev nD) : W3 m ρ c (Proc.devRef .tc main_arg6) = W2 m ρ c (Proc.devRef .tc main_arg6) := by
  unwritten hostOps1
theorem W3_arg7 (c : Dev nD) : W3 m ρ c (Proc.devRef .tc main_arg7) = W2 m ρ c (Proc.devRef .tc main_arg7) := by
  unwritten hostOps1
theorem W3_v9 (c : Dev nD) : W3 m ρ c (Proc.devRef .tc main_v9) = W2 m ρ c (Proc.devRef .tc main_v9) := by
  unwritten hostOps1
theorem W3_v12 (c : Dev nD) : W3 m ρ c (Proc.devRef .tc main_v12) = W2 m ρ c (Proc.devRef .tc main_v12) := by
  unwritten hostOps1

/-! ### After the clamp -/

theorem W4_arg0 (c : Dev nD) : W4 m ρ c (Proc.devRef .tc main_arg0) = W3 m ρ c (Proc.devRef .tc main_arg0) := by
  unwritten hostOps1_1
theorem W4_arg1 (c : Dev nD) : W4 m ρ c (Proc.devRef .tc main_arg1) = W3 m ρ c (Proc.devRef .tc main_arg1) := by
  unwritten hostOps1_1
theorem W4_arg4 (c : Dev nD) : W4 m ρ c (Proc.devRef .tc main_arg4) = W3 m ρ c (Proc.devRef .tc main_arg4) := by
  unwritten hostOps1_1
theorem W4_arg5 (c : Dev nD) : W4 m ρ c (Proc.devRef .tc main_arg5) = W3 m ρ c (Proc.devRef .tc main_arg5) := by
  unwritten hostOps1_1
theorem W4_arg6 (c : Dev nD) : W4 m ρ c (Proc.devRef .tc main_arg6) = W3 m ρ c (Proc.devRef .tc main_arg6) := by
  unwritten hostOps1_1
theorem W4_arg7 (c : Dev nD) : W4 m ρ c (Proc.devRef .tc main_arg7) = W3 m ρ c (Proc.devRef .tc main_arg7) := by
  unwritten hostOps1_1
theorem W4_v9 (c : Dev nD) : W4 m ρ c (Proc.devRef .tc main_v9) = W3 m ρ c (Proc.devRef .tc main_v9) := by
  unwritten hostOps1_1
theorem W4_v12 (c : Dev nD) : W4 m ρ c (Proc.devRef .tc main_v12) = W3 m ρ c (Proc.devRef .tc main_v12) := by
  unwritten hostOps1_1

/-! ### At the second call's entry -/

theorem W5_arg0 (c : Dev nD) : W5 m ρ c (Proc.devRef .tc main_arg0) = W4 m ρ c (Proc.devRef .tc main_arg0) := by
  unwritten hostOps1_2
theorem W5_arg1 (c : Dev nD) : W5 m ρ c (Proc.devRef .tc main_arg1) = W4 m ρ c (Proc.devRef .tc main_arg1) := by
  unwritten hostOps1_2
theorem W5_arg4 (c : Dev nD) : W5 m ρ c (Proc.devRef .tc main_arg4) = W4 m ρ c (Proc.devRef .tc main_arg4) := by
  unwritten hostOps1_2

/-! ### The norms and the index arrays at each boundary, as functions of the launch -/

theorem at2_v9 (c : Dev nD) : W2 m ρ c (Proc.devRef .tc main_v9) = degNorm (m ((c : Thread nD τ).loc main_arg6)) := (W2_v9 m ρ c).trans (W1_v9 m ρ c)
theorem at2_v12 (c : Dev nD) : W2 m ρ c (Proc.devRef .tc main_v12) = degNorm (m ((c : Thread nD τ).loc main_arg7)) := (W2_v12 m ρ c).trans (W1_v12 m ρ c)
theorem at2_arg3 (c : Dev nD) : W2 m ρ c (Proc.devRef .tc main_arg3) = (m ((c : Thread nD τ).loc main_arg3)) := (W2_arg3 m ρ c).trans (W1_arg3 m ρ c)
theorem at2_arg6 (c : Dev nD) : W2 m ρ c (Proc.devRef .tc main_arg6) = (m ((c : Thread nD τ).loc main_arg6)) := (W2_arg6 m ρ c).trans (W1_arg6 m ρ c)
theorem at2_arg7 (c : Dev nD) : W2 m ρ c (Proc.devRef .tc main_arg7) = (m ((c : Thread nD τ).loc main_arg7)) := (W2_arg7 m ρ c).trans (W1_arg7 m ρ c)
theorem at3_v9 (c : Dev nD) : W3 m ρ c (Proc.devRef .tc main_v9) = degNorm (m ((c : Thread nD τ).loc main_arg6)) := (W3_v9 m ρ c).trans (at2_v9 m ρ c)
theorem at3_v12 (c : Dev nD) : W3 m ρ c (Proc.devRef .tc main_v12) = degNorm (m ((c : Thread nD τ).loc main_arg7)) := (W3_v12 m ρ c).trans (at2_v12 m ρ c)
theorem at3_arg6 (c : Dev nD) : W3 m ρ c (Proc.devRef .tc main_arg6) = (m ((c : Thread nD τ).loc main_arg6)) := (W3_arg6 m ρ c).trans (at2_arg6 m ρ c)
theorem at3_arg7 (c : Dev nD) : W3 m ρ c (Proc.devRef .tc main_arg7) = (m ((c : Thread nD τ).loc main_arg7)) := (W3_arg7 m ρ c).trans (at2_arg7 m ρ c)
theorem at4_v9 (c : Dev nD) : W4 m ρ c (Proc.devRef .tc main_v9) = degNorm (m ((c : Thread nD τ).loc main_arg6)) := (W4_v9 m ρ c).trans (at3_v9 m ρ c)
theorem at4_v12 (c : Dev nD) : W4 m ρ c (Proc.devRef .tc main_v12) = degNorm (m ((c : Thread nD τ).loc main_arg7)) := (W4_v12 m ρ c).trans (at3_v12 m ρ c)
theorem at4_arg6 (c : Dev nD) : W4 m ρ c (Proc.devRef .tc main_arg6) = (m ((c : Thread nD τ).loc main_arg6)) := (W4_arg6 m ρ c).trans (at3_arg6 m ρ c)
theorem at4_arg7 (c : Dev nD) : W4 m ρ c (Proc.devRef .tc main_arg7) = (m ((c : Thread nD τ).loc main_arg7)) := (W4_arg7 m ρ c).trans (at3_arg7 m ρ c)

/-! ### The features at each boundary, as functions of what the first call left -/

/-- After the first round and the bias. -/
theorem at3_v34 (c : Dev nD) :
    W3 m ρ c (Proc.devRef .tc main_v34)
      = addf (spread (V2 m ρ c main_v15) (m ((c : Thread nD τ).loc main_arg6)) (m ((c : Thread nD τ).loc main_arg7)))
          (broadcastInDim S50000x64 ![0, 1] bcast_S1x64_S50000x64_0_1
            (broadcastInDim S1x64 ![1] bcast_S64_S1x64_1 (m ((c : Thread nD τ).loc main_arg3)))) := by
  rw [spread_eq]
  show StableHlo.after hostOps1 (W2 m ρ c) (Proc.devRef .tc main_v34) = _
  rw [hostOps1_v34, at2_v9, at2_v12, at2_arg6, at2_arg7, at2_arg3]
/-- After the clamp. -/
theorem at4_v35 (c : Dev nD) :
    W4 m ρ c (Proc.devRef .tc main_v35)
      = maximumf
          (addf (spread (V2 m ρ c main_v15) (m ((c : Thread nD τ).loc main_arg6)) (m ((c : Thread nD τ).loc main_arg7)))
            (broadcastInDim S50000x64 ![0, 1] bcast_S1x64_S50000x64_0_1
              (broadcastInDim S1x64 ![1] bcast_S64_S1x64_1 (m ((c : Thread nD τ).loc main_arg3)))))
          (broadcastInDim S50000x64 ![] bcast_S_S50000x64 (constant (F := F) S_ .f32 0x00000000#32)) := by
  show StableHlo.after hostOps1_1 (W3 m ρ c) (Proc.devRef .tc main_v35) = _
  rw [hostOps1_1_v35, at3_v34]

/-! ## The second call's arrays as it finds them -/

/-- The aggregated features: the chain applied to what the first call left in its result array. -/
theorem V5_v51 (c : Dev nD) :
    V5 m ρ c main_v51
      = agg (V2 m ρ c main_v15) (m ((c : Thread nD τ).loc main_arg3)) (m ((c : Thread nD τ).loc main_arg6)) (m ((c : Thread nD τ).loc main_arg7)) := by
  show StableHlo.after hostOps1_2 (W4 m ρ c) (Proc.devRef .tc main_v51) = _
  rw [hostOps1_2_v51, at4_v35, at4_v9, at4_v12, at4_arg6, at4_arg7]
  unfold agg
  rw [spread_eq (maximumf _ _)]
theorem V5_arg4 (c : Dev nD) : V5 m ρ c main_arg4 = m ((c : Thread nD τ).loc main_arg4) := by
  exact (W5_arg4 m ρ c).trans ((W4_arg4 m ρ c).trans ((W3_arg4 m ρ c).trans ((W2_arg4 m ρ c).trans (W1_arg4 m ρ c))))
/-- The bias as a 1 × 2000 row: a reshape of the bias vector. -/
theorem V5_v52 (c : Dev nD) :
    V5 m ρ c main_v52 = shapeCast S1x2000 (m ((c : Thread nD τ).loc main_arg5)) shapeCasts_S2000_S1x2000 := by
  show StableHlo.after hostOps1_2 (W4 m ρ c) (Proc.devRef .tc main_v52) = _
  rw [hostOps1_2_v52, W4_arg5, W3_arg5, W2_arg5, W1_arg5]
theorem V5_arg0 (c : Dev nD) : V5 m ρ c main_arg0 = m ((c : Thread nD τ).loc main_arg0) := by
  exact (W5_arg0 m ρ c).trans ((W4_arg0 m ρ c).trans ((W3_arg0 m ρ c).trans ((W2_arg0 m ρ c).trans (W1_arg0 m ρ c))))
theorem V5_arg1 (c : Dev nD) : V5 m ρ c main_arg1 = m ((c : Thread nD τ).loc main_arg1) := by
  exact (W5_arg1 m ρ c).trans ((W4_arg1 m ρ c).trans ((W3_arg1 m ρ c).trans ((W2_arg1 m ρ c).trans (W1_arg1 m ρ c))))

end Cert.KernelIdeal.HostChain

end
-- ==== Proof.RefValue.lean ====
/-
  The reference's two dense layers read at an index, at the ideal instance.

  * Its first product multiplies the join `[x_u | x_s]` by `W0`: entry `(p, q)` is a sum over `k < 2000` whose term at
    `k < 1000` reads `x_u[p, k]` and at `1000 + k` reads `x_s[p, k]`; split at 1000 it is `projWhole`.
  * Its last seven operations — the product with `W1`, the bias laid over the rows, the two column slices, the two
    products with `x_u` and `x_s`, their sum — are `gate` of the aggregated features, entry by entry.
-/
import proofs.«167163_j1649267442174_1_alg».proof.Proof.Gen.ReferenceIdeal.Read
import proofs.«167163_j1649267442174_1_alg».proof.Proof.Spec

set_option maxRecDepth 16384

noncomputable section

namespace Cert.ReferenceIdeal.RefValue

open Cert.ReferenceIdeal Cert.ReferenceIdeal.Gen Cert.ReferenceIdeal.Read Cert.GraphGate
open Idealize.ShloMosaic Idealize.ShloMosaic.TcCoe Idealize.ShloMosaic.ValueIdx Idealize.SL.Sem
open scoped BigOperators

/-- The join `[x_u | x_s]` read at a column `k < 1000` of row `p` is `x_u[p, k]`. -/
theorem join_left (x0 x1 : (⟨S50000x1000, .f32⟩ : BufTy).Contents (Elt Ideal)) (p : Fin 50000) (q : Fin 64) (k : Fin 1000) :
    val_main_v13 (F := Ideal) x0 x1 (lidx_main_v14 (ix2 p q) ⟨k.val, by omega⟩) = x0 (ix2 p k) := by
  unfold val_main_v13
  exact concatenate_pair_apply_left (t := S50000x2000) (s₁ := S50000x1000) (s₂ := S50000x1000) (1 : Fin 2) x0 x1
    concatenates_S50000x1000_S50000x1000_S50000x2000_d1 (lidx_main_v14 (ix2 p q) ⟨k.val, by omega⟩) rfl (ix2 p k)
    (fun b => by match b with | ⟨0, _⟩ => rfl | ⟨1, _⟩ => rfl)

/-- The join `[x_u | x_s]` read at a column `1000 + k` of row `p` is `x_s[p, k]`. -/
theorem join_right (x0 x1 : (⟨S50000x1000, .f32⟩ : BufTy).Contents (Elt Ideal)) (p : Fin 50000) (q : Fin 64) (k : Fin 1000) :
    val_main_v13 (F := Ideal) x0 x1 (lidx_main_v14 (ix2 p q) ⟨1000 + k.val, by omega⟩) = x1 (ix2 p k) := by
  unfold val_main_v13
  exact concatenate_pair_apply_right (t := S50000x2000) (s₁ := S50000x1000) (s₂ := S50000x1000) (1 : Fin 2) x0 x1
    concatenates_S50000x1000_S50000x1000_S50000x2000_d1 (lidx_main_v14 (ix2 p q) ⟨1000 + k.val, by omega⟩) rfl rfl (ix2 p k)
    (fun b hb => by match b, hb with | ⟨0, _⟩, _ => rfl | ⟨1, _⟩, hb => exact absurd rfl hb)
    (by show k.val + 1000 = 1000 + k.val; omega)

/-- The reference's first product is the projection over the whole weight. -/
theorem first_product (x0 x1 : (⟨S50000x1000, .f32⟩ : BufTy).Contents (Elt Ideal)) (x2 : (⟨S2000x64, .f32⟩ : BufTy).Contents (Elt Ideal)) :
    val_main_v14 (F := Ideal) x0 x1 x2 = projWhole x0 x1 x2 := by
  funext i
  obtain ⟨p, q, rfl⟩ : ∃ (p : Fin 50000) (q : Fin 64), i = ix2 p q := ⟨i 0, i 1, eq_ix2 i⟩
  rw [val_main_v14_apply, sum_split]
  show _ = projWholeAt x0 x1 x2 p q
  unfold projWholeAt
  congr 1
  · refine Finset.sum_congr rfl fun k _ => ?_
    congr 1
    · exact join_left x0 x1 p q k
    · exact congrArg x2 (funext fun a => by match a with | ⟨0, _⟩ => rfl | ⟨1, _⟩ => rfl)
  · refine Finset.sum_congr rfl fun k _ => ?_
    congr 1
    · exact join_right x0 x1 p q k
    · exact congrArg x2 (funext fun a => by match a with | ⟨0, _⟩ => rfl | ⟨1, _⟩ => rfl)

/-- The reference's result is the gate of its aggregated features. -/
theorem result_is_gate (x0 x1 : (⟨S50000x1000, .f32⟩ : BufTy).Contents (Elt Ideal)) (x2 : (⟨S2000x64, .f32⟩ : BufTy).Contents (Elt Ideal))
    (x3 : (⟨S64, .f32⟩ : BufTy).Contents (Elt Ideal)) (x4 : (⟨S64x2000, .f32⟩ : BufTy).Contents (Elt Ideal))
    (x5 : (⟨S2000, .f32⟩ : BufTy).Contents (Elt Ideal)) (x6 x7 : (⟨S1600000, .i32⟩ : BufTy).Contents (Elt Ideal)) :
    val_main_v59 (F := Ideal) x0 x1 x2 x3 x4 x5 x6 x7
      = gate (val_main_v50 (F := Ideal) x0 x1 x2 x3 x6 x7) x4 x5 x0 x1 := by
  funext i
  obtain ⟨p, q, rfl⟩ : ∃ (p : Fin 50000) (q : Fin 1000), i = ix2 p q := ⟨i 0, i 1, eq_ix2 i⟩
  rw [val_main_v59_apply, val_main_v57_apply, val_main_v58_apply, val_main_v55_apply, val_main_v56_apply,
    val_main_v54_apply, val_main_v54_apply, val_main_v51_apply, val_main_v51_apply, val_main_v53_apply,
    val_main_v53_apply, val_main_v52_apply, val_main_v52_apply]
  -- the index functions of the nine stages, composed, at the coordinates `(p, q)`
  have l0 : ∀ k : Fin 64, lidx_main_v51 (idx_main_v55 (ix2 p q)) k = ix2 p k := fun k =>
    funext fun a => by match a with | ⟨0, _⟩ => rfl | ⟨1, _⟩ => rfl
  have l1 : ∀ k : Fin 64, lidx_main_v51 (idx_main_v56 (ix2 p q)) k = ix2 p k := fun k =>
    funext fun a => by match a with | ⟨0, _⟩ => rfl | ⟨1, _⟩ => rfl
  have r0 : ∀ k : Fin 64, ridx_main_v51 (idx_main_v55 (ix2 p q)) k = ix2 k (⟨q.val, by omega⟩ : Fin 2000) := fun k =>
    funext fun a => by match a with | ⟨0, _⟩ => rfl | ⟨1, _⟩ => rfl
  have r1 : ∀ k : Fin 64, ridx_main_v51 (idx_main_v56 (ix2 p q)) k = ix2 k (⟨1000 + q.val, by omega⟩ : Fin 2000) := fun k =>
    funext fun a => by match a with | ⟨0, _⟩ => rfl | ⟨1, _⟩ => rfl
  have b0 : idx_main_v52 (idx_main_v53 (idx_main_v55 (ix2 p q))) = ix1 (⟨q.val, by omega⟩ : Fin 2000) :=
    funext fun a => by match a with | ⟨0, _⟩ => rfl
  have b1 : idx_main_v52 (idx_main_v53 (idx_main_v56 (ix2 p q))) = ix1 (⟨1000 + q.val, by omega⟩ : Fin 2000) :=
    funext fun a => by match a with | ⟨0, _⟩ => rfl
  simp only [l0, l1, r0, r1, b0, b1]
  rfl

end Cert.ReferenceIdeal.RefValue

end
-- ==== Proof.Bridge.lean ====
/-
  The kernel's result array is the reference's result, as one function of the launch memory.

  Read from the end: the result array is what the second call's 125 write-backs leave, the gate of the aggregated
  features it was entered with; those are the message-passing chain of the first call's result array, which is the
  projection from the two halves of the weight, i.e. from the whole weight, i.e. the reference's first product. The
  chain is the same chain of host operations in both programs, so from there on the two sides are one term.
-/
import proofs.«167163_j1649267442174_1_alg».proof.Proof.KernelRun
import proofs.«167163_j1649267442174_1_alg».proof.Proof.Layer0Value
import proofs.«167163_j1649267442174_1_alg».proof.Proof.GateValue
import proofs.«167163_j1649267442174_1_alg».proof.Proof.HostChain
import proofs.«167163_j1649267442174_1_alg».proof.Proof.RefValue

set_option maxRecDepth 16384

noncomputable section

namespace Cert.Bridge

open Idealize.ShloMosaic Idealize.ShloMosaic.TcCoe Idealize.SL.Sem
open Cert.GraphGate

/-- The message-passing chain is the same chain of host operations in the two programs. -/
theorem chain_eq (x0 x1 : (⟨Cert.ReferenceIdeal.S50000x1000, .f32⟩ : BufTy).Contents (Elt Ideal))
    (x2 : (⟨Cert.ReferenceIdeal.S2000x64, .f32⟩ : BufTy).Contents (Elt Ideal))
    (x3 : (⟨Cert.ReferenceIdeal.S64, .f32⟩ : BufTy).Contents (Elt Ideal))
    (x6 x7 : (⟨Cert.ReferenceIdeal.S1600000, .i32⟩ : BufTy).Contents (Elt Ideal)) :
    Cert.KernelIdeal.HostChain.agg (F := Ideal) (Cert.ReferenceIdeal.Read.val_main_v14 (F := Ideal) x0 x1 x2) x3 x6 x7
      = Cert.ReferenceIdeal.Read.val_main_v50 (F := Ideal) x0 x1 x2 x3 x6 x7 := by
  -- the first product is an atom on both sides; below it the reference's stages unfold to the very chain `agg` names
  generalize hh : Cert.ReferenceIdeal.Read.val_main_v14 (F := Ideal) x0 x1 x2 = h0
  unfold Cert.ReferenceIdeal.Read.val_main_v50 Cert.ReferenceIdeal.Read.val_main_v47 Cert.ReferenceIdeal.Read.val_main_v44
    Cert.ReferenceIdeal.Read.val_main_v37 Cert.ReferenceIdeal.Read.val_main_v34 Cert.ReferenceIdeal.Read.val_main_v33
    Cert.ReferenceIdeal.Read.val_main_v30 Cert.ReferenceIdeal.Read.val_main_v27 Cert.ReferenceIdeal.Read.val_main_v24
    Cert.ReferenceIdeal.Read.val_main_v17
  rw [hh]
  rfl

open Cert.KernelIdeal Cert.KernelIdeal.Gen in
/-- The kernel's result array, after the run, is the reference's last stage of the same launch arrays. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    W6 m ρ c (Proc.devRef .tc main_v53)
      = Cert.ReferenceIdeal.Read.val_main_v59 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  -- the result array is the second call's output window; the first call's result array its output window
  have hout : W6 m ρ c (Proc.devRef .tc main_v53) = (dat1 (V5 m ρ) c).arrAt 5 cfg1.N := W6_arr m ρ c 5
  have hmid : V2 m ρ c main_v15 = (dat0 (V1 m ρ) c).arrAt 4 cfg0.N := W2_arr m ρ c 4
  rw [hout, Cert.KernelIdeal.Gate.array_eq (V5 m ρ) c,
    Cert.KernelIdeal.HostChain.V5_v51, Cert.KernelIdeal.HostChain.V5_arg4, Cert.KernelIdeal.HostChain.V5_v52,
    Cert.KernelIdeal.HostChain.V5_arg0, Cert.KernelIdeal.HostChain.V5_arg1,
    hmid, Cert.KernelIdeal.Layer0.array_eq (V1 m ρ) c,
    Cert.KernelIdeal.HostChain.V1_arg0, Cert.KernelIdeal.HostChain.V1_arg1, Cert.KernelIdeal.HostChain.V1_v13,
    Cert.KernelIdeal.HostChain.V1_v14,
    proj_of_slices, ← Cert.ReferenceIdeal.RefValue.first_product, chain_eq, gateRow_of_cast,
    ← Cert.ReferenceIdeal.RefValue.result_is_gate]

end Cert.Bridge

end
-- ==== Proof.lean ====
/-
  A two-layer graph network with an elementwise gate, as two pallas_calls among host operations, against its plain
  jnp reference, over the extended reals.

  The two programs share every host operation (the degree norms, the wrap of a negative row number, the gathers and
  the scatter-adds of the two message-passing rounds, the bias and the clamp at zero) and differ only in the two dense
  layers. The kernel's first call multiplies `x_u` by the top half of `W0` and `x_s` by the bottom half and adds, a
  thousand rows per grid point, where the reference multiplies the join `[x_u | x_s]` by `W0`: one sum over 2000 terms
  split at 1000, which a commutative monoid allows with no finiteness (Proof/Spec.lean, Proof/Layer0Value.lean,
  Proof/RefValue.lean). The kernel's second call forms `agg · W1 + b1`, takes its first and last thousand columns and
  gates `x_u` and `x_s` with them, 400 rows per grid point; the reference does the same on whole arrays
  (Proof/GateValue.lean, Proof/RefValue.lean). Between the calls both apply the same chain to the same first
  product (Proof/HostChain.lean), so the two results are one function of the arguments (Proof/Bridge.lean); the
  precondition is never opened. The idealization rewrote nothing, so `preserves` is trivial; the frames are the
  generated ones, the reference's its run with the result dropped.
-/
import proofs.«167163_j1649267442174_1_alg».proof.Defs
import proofs.«167163_j1649267442174_1_alg».proof.Proof.Gen.Kernel
import proofs.«167163_j1649267442174_1_alg».proof.Proof.Gen.Kernel.Frame
import proofs.«167163_j1649267442174_1_alg».proof.Proof.Gen.KernelIdeal
import proofs.«167163_j1649267442174_1_alg».proof.Proof.Gen.KernelIdeal.Frame
import proofs.«167163_j1649267442174_1_alg».proof.Proof.Gen.ReferenceIdeal
import proofs.«167163_j1649267442174_1_alg».proof.Proof.Gen.Pre_finite_inputs
import proofs.«167163_j1649267442174_1_alg».proof.Proof.Gen.ReferenceIdeal.Run
import proofs.«167163_j1649267442174_1_alg».proof.Proof.Gen.ReferenceIdeal.Read
import proofs.«167163_j1649267442174_1_alg».proof.Proof.KernelRun
import proofs.«167163_j1649267442174_1_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the reference's last stage of the kernel's launch arrays. -/
theorem algebraic : Cert.algebraic_KernelIdeal_ReferenceIdeal := by
  intro m ρ m' ρ' _ hagree
  refine ⟨fun c => Cert.KernelIdeal.Gen.W6 m ρ c (Proc.devRef .tc Cert.KernelIdeal.main_v53),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
